-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "tile_floor_sum" .f32 0x36ABC811#32 ((23056124157 / 4503599627370496 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192 : Shape := ⟨1, ![8192]⟩
abbrev S10000x256 : Shape := ⟨2, ![10000, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S10000x256 : S_.BroadcastsInDim S10000x256 (![] : Fin 0 → Fin S10000x256.rank)
  reducesTo_S10000x256_S_d0_1 : S10000x256.ReducesTo [0, 1] S_
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8192x256 .f32) (main_arg1 : IVec S8192 32) (main_arg2 : FVec F S10000x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S10000x256 .f32 := Host.absf main_arg2
  let main_cst_0 : FVec F S_ .f32 := constant S_ .f32 0x7F800000#32
  let main_v5 : FVec F S10000x256 .f32 := broadcastInDim S10000x256 ![] bcast_S_S10000x256 main_cst_0
  let main_v6 : IVec S10000x256 1 := cmpf .olt main_v4 main_v5
  let main_c_1 : IVec S_ 1 := constantI S_ 1 1#1
  let main_v7 : IVec S_ 1 := (fun x v => Host.reduce IntOp.andi x v reducesTo_S10000x256_S_d0_1 h_S_) main_v6 main_c_1
  let main_v8 : IVec S_ 1 := andi main_v3 main_v7
  let main_c_2 : IVec S_ 32 := constantI S_ 32 0#32
  let main_v9 : IVec S8192 32 := broadcastInDim S8192 ![] bcast_S_S8192 main_c_2
  let main_v10 : IVec S8192 1 := cmpi .sge main_arg1 main_v9
  let main_c_3 : IVec S_ 32 := constantI S_ 32 10000#32
  let main_v11 : IVec S8192 32 := broadcastInDim S8192 ![] bcast_S_S8192 main_c_3
  let main_v12 : IVec S8192 1 := cmpi .slt main_arg1 main_v11
  let main_v13 : IVec S8192 1 := andi main_v10 main_v12
  let main_c_4 : IVec S_ 1 := constantI S_ 1 1#1
  let main_v14 : IVec S_ 1 := (fun x v => Host.reduce IntOp.andi x v reducesTo_S8192_S_d0 h_S_) main_v13 main_c_4
  let main_v15 : IVec S_ 1 := andi main_v8 main_v14
  main_v15
-- ==== Kernel.lean ====
abbrev S8192x256 : Shape := ⟨2, ![8192, 256]⟩
abbrev S8192 : Shape := ⟨1, ![8192]⟩
abbrev S10000x256 : Shape := ⟨2, ![10000, 256]⟩
abbrev S_ : Shape := ⟨0, ![]⟩
abbrev S10240x256 : Shape := ⟨2, ![10240, 256]⟩
abbrev S10000 : Shape := ⟨1, ![10000]⟩
abbrev S8192x1 : Shape := ⟨2, ![8192, 1]⟩
abbrev S1x256 : Shape := ⟨2, ![1, 256]⟩
abbrev S512x256 : Shape := ⟨2, ![512, 256]⟩
abbrev S512x1 : Shape := ⟨2, ![512, 1]⟩
abbrev S1x128 : Shape := ⟨2, ![1, 128]⟩
abbrev S1x1 : Shape := ⟨2, ![1, 1]⟩
abbrev S512 : Shape := ⟨1, ![512]⟩
abbrev S1x1280 : Shape := ⟨2, ![1, 1280]⟩
abbrev S1280x256 : Shape := ⟨2, ![1280, 256]⟩
abbrev S512x1280 : Shape := ⟨2, ![512, 1280]⟩
abbrev S1 : Shape := ⟨1, ![1]⟩

abbrev nBuf : Space → Nat
  | .hbm => 26
  | .vmem => 10
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S10000x256, .f32⟩
  | .hbm, ⟨3, _⟩ => ⟨S10000x256, .bf16⟩
  | .hbm, ⟨4, _⟩ => ⟨S_, .i32⟩
  | .hbm, ⟨5, _⟩ => ⟨S_, .bf16⟩
  | .hbm, ⟨6, _⟩ => ⟨S10240x256, .bf16⟩
  | .hbm, ⟨7, _⟩ => ⟨S10000x256, .f32⟩
  | .hbm, ⟨8, _⟩ => ⟨S_, .f32⟩
  | .hbm, ⟨9, _⟩ => ⟨S10000, .f32⟩
  | .hbm, ⟨10, _⟩ => ⟨S_, .i32⟩
  | .hbm, ⟨11, _⟩ => ⟨S8192, .i32⟩
  | .hbm, ⟨12, _⟩ => ⟨S8192, .i1⟩
  | .hbm, ⟨13, _⟩ => ⟨S_, .i32⟩
  | .hbm, ⟨14, _⟩ => ⟨S8192, .i32⟩
  | .hbm, ⟨15, _⟩ => ⟨S8192, .i32⟩
  | .hbm, ⟨16, _⟩ => ⟨S8192, .i32⟩
  | .hbm, ⟨17, _⟩ => ⟨S8192x1, .i32⟩
  | .hbm, ⟨18, _⟩ => ⟨S8192, .f32⟩
  | .hbm, ⟨19, _⟩ => ⟨S8192x1, .f32⟩
  | .hbm, ⟨20, _⟩ => ⟨S8192x1, .i32⟩
  | .hbm, ⟨21, _⟩ => ⟨S1x256, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .local _ .vmem, ⟨0, _⟩ => ⟨S512x256, .f32⟩
  | .local _ .vmem, ⟨1, _⟩ => ⟨S512x256, .f32⟩
  | .local _ .vmem, ⟨2, _⟩ => ⟨S512x1, .i32⟩
  | .local _ .vmem, ⟨3, _⟩ => ⟨S512x1, .i32⟩
  | .local _ .vmem, ⟨4, _⟩ => ⟨S512x1, .f32⟩
  | .local _ .vmem, ⟨5, _⟩ => ⟨S512x1, .f32⟩
  | .local _ .vmem, ⟨6, _⟩ => ⟨S10240x256, .bf16⟩
  | .local _ .vmem, ⟨7, _⟩ => ⟨S1x128, .f32⟩
  | .local _ .vmem, ⟨8, _⟩ => ⟨S1x128, .f32⟩
  | .local _ .vmem, ⟨9, _⟩ => ⟨S1x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 8], ![false, false]⟩

@[reducible] def k0_t1_loop : Scf.Loop 32 :=
  let c0_i32_7 : BitVec 32 := 0#32
  let c8_i32 : BitVec 32 := 8#32
  let v14 : BitVec 32 := Scalar.addi c0_i32_7 c8_i32
  let c1_i32 : BitVec 32 := 1#32
  ⟨c0_i32_7, v14, c1_i32⟩
def k0_mult1 (k0_t1 : Fin k0_t1_loop.trips) : BitVec 32 :=
  let c0_i32_7 : BitVec 32 := 0#32
  let c1_i32 : BitVec 32 := 1#32
  let arg8 : BitVec 32 := Scf.iv c0_i32_7 c1_i32 k0_t1
  let c1280_i32 : BitVec 32 := 1280#32
  let v36 : BitVec 32 := Scalar.muli arg8 c1280_i32
  v36
def k0_off1 (k0_t1 : Fin k0_t1_loop.trips) : Fin 2 → Nat :=
  let c0_i32_7 : BitVec 32 := 0#32
  let c1_i32 : BitVec 32 := 1#32
  let arg8 : BitVec 32 := Scf.iv c0_i32_7 c1_i32 k0_t1
  let c1280_i32 : BitVec 32 := 1280#32
  let v36 : BitVec 32 := Scalar.muli arg8 c1280_i32
  let v37 : BitVec 32 := v36
  let v38 : Index := Scalar.indexCast v37
  let c0_19 : Index := 0#32
  ![v38.toNat, 0]
def k0_cond2 (i : grid0.Coords) : BitVec 1 :=
  let arg1 : BitVec 32 := BitVec.ofNat 32 (i 1).val
  let c7_i32 : BitVec 32 := 7#32
  let v33 : BitVec 1 := Scalar.cmpi .eq arg1 c7_i32
  let v34 : BitVec 32 := Scalar.extui v33
  let c0_i32_18 : BitVec 32 := 0#32
  let v35 : BitVec 1 := Scalar.cmpi .ne v34 c0_i32_18
  v35

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S10240x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bitsLt_bf16_f32 : FTy.bits .bf16 < FTy.bits .f32
  pads_S10000x256_S10240x256_02400_000 : S10000x256.Pads (![0, 0] : Fin 2 → Nat) ![240, 0] ![0, 0] S10240x256
  h_S_ : 0 < S_.numel
  reducesTo_S10000x256_S10000_d1 : S10000x256.ReducesTo [1] S10000
  bcast_S_S8192 : S_.BroadcastsInDim S8192 (![] : Fin 0 → Fin S8192.rank)
  bcast_S8192_S8192x1_0 : S8192.BroadcastsInDim S8192x1 (![0] : Fin 1 → Fin S8192x1.rank)
  shapeCasts_S8192_S8192x1 : S8192.ShapeCasts S8192x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x256_S512x256_0_0 : ∀ a, (![0, 0] : Fin 2 → Nat) a + S512x256.size a ≤ S512x256.size a
  h_S512x256 : 0 < S512x256.numel
  reduces_S512x256_S512 : S512x256.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  iota_S1x1280_d1_w32 : S1x1280.Iotas .tc 32 [1]
  h_S1280x256 : 0 < S1280x256.numel
  shapeCasts_S1280x256_S1280x256 : S1280x256.ShapeCasts S1280x256
  broadcasts_S512x1_S512x1280 : S512x1.Broadcasts S512x1280
  broadcasts_S1x1280_S512x1280 : S1x1280.Broadcasts S512x1280
  reduces_S512x1280_S512 : S512x1280.Reduces [1] S512
  reduces_S512x1_S1 : S512x1.Reduces [0] S1
  shapeCasts_S1_S1x1 : S1.ShapeCasts S1x1
  iota_S1x128_d1_w32 : S1x128.Iotas .tc 32 [1]
  broadcasts_S1x1_S1x128 : S1x1.Broadcasts S1x128
  inb_S1x128_S1x128_0_0 : ∀ a, (![0, 0] : Fin 2 → Nat) a + S1x128.size a ≤ S1x128.size a
  h_S1x128 : 0 < S1x128.numel
  reducesTo_S1x256_S_d0_1 : S1x256.ReducesTo [0, 1] S_
  gather_S10000_S8192x1_S8192_n_0_n_n_0_1_1_wf : GatherDims.WF S10000 S8192x1 S8192 [] [0] [] [0] [] 1 ![1]
  dot_S512x256_S1280x256_S512x1280_1_1_0_0_n_n_wf : DotDims.WF S512x256 S1280x256 S512x1280 [1] [1] [0] [0] [] []
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S1280x256.size a ≤ S10240x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S8192x256.size a
  hwx0_0 : ∀ i : grid0.Coords, EltTy.bits .f32 = 32 ∨ (Rect.block (s := S8192x256) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S8192x1.size a
  hwx0_1 : ∀ i : grid0.Coords, EltTy.bits .i32 = 32 ∨ (Rect.block (s := S8192x1) S512x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .f32 = 32 ∨ (Rect.block (s := S8192x1) S512x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10240x256.size a ≤ S10240x256.size a
  hwx0_3 : ∀ i : grid0.Coords, EltTy.bits .bf16 = 32 ∨ (Rect.block (s := S10240x256) S10240x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x256.size a
  hwx0_4 : ∀ i : grid0.Coords, EltTy.bits .f32 = 32 ∨ (Rect.block (s := S1x256) S1x128.size (cc0_transform_4 i) (hinb0_4 i)).WholeWords (EltTy.packing .f32)

variable [Facts₀]

def gather_S10000_S8192x1_S8192_n_0_n_n_0_1_1 : GatherDims S10000 S8192x1 S8192 where
  offsetDims := []
  collapsedSliceDims := [0]
  operandBatchingDims := []
  startIndicesBatchingDims := []
  startIndexMap := [0]
  indexVectorDim := 1
  sliceSizes := ![1]
  wf := gather_S10000_S8192x1_S8192_n_0_n_n_0_1_1_wf
def dot_S512x256_S1280x256_S512x1280_1_1_0_0_n_n : DotDims S512x256 S1280x256 S512x1280 where
  lhsContracting := [1]
  rhsContracting := [1]
  lhsNonContracting := [0]
  rhsNonContracting := [0]
  lhsBatch := []
  rhsBatch := []
  wf := dot_S512x256_S1280x256_S512x1280_1_1_0_0_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S10240x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x256 : Shape := ⟨2, ![8192, 256]⟩
abbrev S8192 : Shape := ⟨1, ![8192]⟩
abbrev S10000x256 : Shape := ⟨2, ![10000, 256]⟩
abbrev S_ : Shape := ⟨0, ![]⟩
abbrev S8192x1 : Shape := ⟨2, ![8192, 1]⟩
abbrev S10000 : Shape := ⟨1, ![10000]⟩
abbrev S1x10000 : Shape := ⟨2, ![1, 10000]⟩
abbrev S8192x10000 : Shape := ⟨2, ![8192, 10000]⟩

abbrev nBuf : Space → Nat
  | .hbm => 39
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S10000x256, .f32⟩
  | .hbm, ⟨3, _⟩ => ⟨S8192x256, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S10000x256, .f32⟩
  | .hbm, ⟨8, _⟩ => ⟨S_, .f32⟩
  | .hbm, ⟨9, _⟩ => ⟨S10000, .f32⟩
  | .hbm, ⟨10, _⟩ => ⟨S1x10000, .f32⟩
  | .hbm, ⟨11, _⟩ => ⟨S8192x10000, .f32⟩
  | .hbm, ⟨12, _⟩ => ⟨S8192x10000, .f32⟩
  | .hbm, ⟨13, _⟩ => ⟨S8192x10000, .f32⟩
  | .hbm, ⟨14, _⟩ => ⟨S8192x10000, .f32⟩
  | .hbm, ⟨15, _⟩ => ⟨S_, .f32⟩
  | .hbm, ⟨16, _⟩ => ⟨S8192x10000, .f32⟩
  | .hbm, ⟨17, _⟩ => ⟨S8192x10000, .f32⟩
  | .hbm, ⟨18, _⟩ => ⟨S8192x10000, .f32⟩
  | .hbm, ⟨19, _⟩ => ⟨S8192x1, .i32⟩
  | .hbm, ⟨20, _⟩ => ⟨S10000, .i32⟩
  | .hbm, ⟨21, _⟩ => ⟨S1x10000, .i32⟩
  | .hbm, ⟨22, _⟩ => ⟨S8192x10000, .i32⟩
  | .hbm, ⟨23, _⟩ => ⟨S8192x10000, .i32⟩
  | .hbm, ⟨24, _⟩ => ⟨S8192x10000, .i1⟩
  | .hbm, ⟨25, _⟩ => ⟨S8192x10000, .f32⟩
  | .hbm, ⟨26, _⟩ => ⟨S8192x10000, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S8192x10000, .f32⟩
  | .hbm, ⟨31, _⟩ => ⟨S8192x10000, .f32⟩
  | .hbm, ⟨32, _⟩ => ⟨S_, .f32⟩
  | .hbm, ⟨33, _⟩ => ⟨S8192x10000, .f32⟩
  | .hbm, ⟨34, _⟩ => ⟨S8192x10000, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  reducesTo_S10000x256_S10000_d1 : S10000x256.ReducesTo [1] S10000
  bcast_S10000_S1x10000_1 : S10000.BroadcastsInDim S1x10000 (![1] : Fin 1 → Fin S1x10000.rank)
  bcast_S8192x1_S8192x10000_0_1 : S8192x1.BroadcastsInDim S8192x10000 (![0, 1] : Fin 2 → Fin S8192x10000.rank)
  bcast_S1x10000_S8192x10000_0_1 : S1x10000.BroadcastsInDim S8192x10000 (![0, 1] : Fin 2 → Fin S8192x10000.rank)
  bcast_S_S8192x10000 : S_.BroadcastsInDim S8192x10000 (![] : Fin 0 → Fin S8192x10000.rank)
  reducesTo_S8192x10000_S_d0_1 : S8192x10000.ReducesTo [0, 1] S_
  dot_S8192x256_S10000x256_S8192x10000_1_1_0_0_n_n_wf : DotDims.WF S8192x256 S10000x256 S8192x10000 [1] [1] [0] [0] [] []

variable [Facts₀]

def dot_S8192x256_S10000x256_S8192x10000_1_1_0_0_n_n : DotDims S8192x256 S10000x256 S8192x10000 where
  lhsContracting := [1]
  rhsContracting := [1]
  lhsNonContracting := [0]
  rhsNonContracting := [0]
  lhsBatch := []
  rhsBatch := []
  wf := dot_S8192x256_S10000x256_S8192x10000_1_1_0_0_n_n_wf

class Facts : Prop extends Facts₀ where

variable [Facts]
-- ==== Proof.PreDecode.lean ====
/-
  The label range, read out of the precondition.

  The precondition is one truth value: the conjunction of "every feature is finite", "every center coordinate is
  finite" and "every label `t` satisfies `0 ≤ t < 10000` as a signed 32-bit integer". From the statement that it is
  true, this module extracts the third part in the form the loss needs: a class `l b : Fin 10000` for every row `b`,
  with the row's label word equal to the 32-bit word of `l b`. The two finiteness parts are not used here.
-/
import proofs.«412466_j9448928051410_3_alg».proof.Pre_finite_inputs
import Idealize.ShloMosaic.Lib.ReduceAll
import Idealize.ShloMosaic.Lib.StableHlo.Predicate
import Idealize.ShloMosaic.Lib.ValueIdx

namespace Cert.Pre_finite_inputs.Decode

open Idealize.ShloMosaic

/-- A rank-0 shape has exactly one index. -/
instance : Subsingleton S_.Idx := ⟨fun a b => funext fun d => d.elim0⟩

/-- THE LABEL RANGE, AS SIGNED VALUES. The precondition's third conjunct is the conjunction, over all 8192 positions,
    of `0 ≤ label` and `label < 10000` read as signed 32-bit words. If the whole precondition holds, so does that
    conjunct, hence each of its 8192 cells, hence both comparisons at every position; the two compared constants are
    the words of `0` and `10000`, whose signed values are those numbers. -/
theorem label_bounds {F : FTy → Type} [FloatOps F] [Facts] (x : FVec F S8192x256 .f32) (lab : IVec S8192 32)
    (cn : FVec F S10000x256 .f32) (h : fn (F := F) x lab cn = fun _ => 1#1) (i : S8192.Idx) :
    0 ≤ (lab i).toInt ∧ (lab i).toInt < 10000 := by
  have h0 := congrFun h ValueIdx.ix0
  dsimp only [fn, andi] at h0
  -- the outer conjunction: (finiteness of the features ∧ finiteness of the centers) ∧ label range
  obtain ⟨-, h14⟩ := IntOp.andi_eq_one.1 h0
  have e0 : (0#32 : BitVec 32).toInt = 0 := by decide
  have e1 : (10000#32 : BitVec 32).toInt = 10000 := by decide
  -- a conjunction over all positions that holds, holds at position `i`
  have hi := Host.reduce_andi_all _ _ _ _ _ h14 i
  obtain ⟨hge, hlt⟩ := IntOp.andi_eq_one.1 hi
  dsimp only [cmpi] at hge hlt
  -- each comparison is against a scalar spread over all positions: it reads the scalar
  rw [IntOp.cmpi_sge, StableHlo.Predicate.bcast_scalar _ Facts.h_S_] at hge
  rw [IntOp.cmpi_slt, StableHlo.Predicate.bcast_scalar _ Facts.h_S_] at hlt
  dsimp only [constantI] at hge hlt
  rw [e0] at hge
  rw [e1] at hlt
  exact ⟨hge, hlt⟩

/-- THE LABELS ARE CLASSES. Under the precondition every label word is the 32-bit word of a class index below 10000:
    a word whose signed value `v` is non-negative is the word of the natural number `v`, and `v < 10000`. -/
theorem labels_in_range {F : FTy → Type} [FloatOps F] [Facts] (x : FVec F S8192x256 .f32) (lab : IVec S8192 32)
    (cn : FVec F S10000x256 .f32) (h : fn (F := F) x lab cn = fun _ => 1#1) :
    ∃ l : Fin 8192 → Fin 10000, ∀ b : Fin 8192, lab (ValueIdx.ix1 b) = BitVec.ofNat 32 (l b).val := by
  have hall := label_bounds x lab cn h
  refine ⟨fun b => ⟨(lab (ValueIdx.ix1 b)).toInt.toNat, by have := hall (ValueIdx.ix1 b); omega⟩, fun b => ?_⟩
  obtain ⟨h1, -⟩ := hall (ValueIdx.ix1 b)
  show lab (ValueIdx.ix1 b) = BitVec.ofNat 32 (lab (ValueIdx.ix1 b)).toInt.toNat
  rw [← BitVec.ofInt_natCast, Int.toNat_of_nonneg h1, BitVec.ofInt_toInt]

end Cert.Pre_finite_inputs.Decode
-- ==== Proof.Spec.lean ====
/-
  The mathematics both programs compute, over the extended reals, with no program in sight.

  For features `X : 8192 × 256`, class centers `C : 10000 × 256` and a class `l b` per row, the squared distance
  of row `b` to center `c` is `‖X b‖² + ‖C c‖² − 2 ⟨X b, C c⟩`. The loss clips every cell of the one-hot-masked
  distance matrix into `[floor, cap]` and sums: the cell of row `b` at its own class keeps its distance, every other
  cell is `0` before the clip and the `floor` after it. So a row contributes its clipped label distance and `9999`
  floors (`row_cells`), and the whole matrix the label distances and `8192 · 9999` floors (`total`). Cut into
  16 tiles of 512 rows, each tile adding `512 · 9999` floors at once, it is the same sum (`tiles_total`).
-/
import Idealize.ShloMosaic.PureOps.Ideal
import Idealize.ShloMosaic.PureOps.Ideal.Laws
import Idealize.ShloMosaic.Lib.ValueIdx

noncomputable section

namespace CenterLoss

open Idealize.ShloMosaic
open scoped BigOperators

/-- The clip's lower bound, the f32 nearest `1e-12`, as the extended real its word denotes. -/
abbrev floorE : EReal := Ideal.ofBits .f32 0x2B8CBCCC#32
/-- The clip's upper bound, the f32 nearest `1e12`. -/
abbrev capE : EReal := Ideal.ofBits .f32 0x5368D4A5#32
/-- The factor `2.0` of the cross term. -/
abbrev twoE : EReal := Ideal.ofBits .f32 0x40000000#32

/-- The floor's word denotes the dyadic `2305843 / 2^61`. -/
theorem floorE_eq : floorE = ((2305843 / 2305843009213693952 : ℝ) : EReal) := by
  simp [floorE, Ideal.ofBits, Ideal.ieee, -EReal.coe_mul]; norm_num

/-- The cap's word denotes the integer `999999995904`. -/
theorem capE_eq : capE = ((999999995904 : ℝ) : EReal) := by
  simp [capE, Ideal.ofBits, Ideal.ieee, -EReal.coe_mul]; norm_num

/-- Clipping into `[floor, cap]`: the larger of the floor and the value, then the smaller of the cap and that. -/
def clip (v : EReal) : EReal := min capE (max floorE v)

/-- Zero clips to the floor: the floor is positive and below the cap. -/
theorem clip_zero : clip 0 = floorE := by
  unfold clip
  rw [floorE_eq, capE_eq]
  have h0 : (0 : EReal) ≤ ((2305843 / 2305843009213693952 : ℝ) : EReal) := by
    rw [← EReal.coe_zero, EReal.coe_le_coe_iff]; norm_num
  have h1 : ((2305843 / 2305843009213693952 : ℝ) : EReal) ≤ ((999999995904 : ℝ) : EReal) := by
    rw [EReal.coe_le_coe_iff]; norm_num
  rw [max_eq_left h0, min_eq_right h1]

/-- A multiple of a real is the real multiple. -/
theorem nsmul_coe (n : ℕ) (r : ℝ) : n • (r : EReal) = ((n * r : ℝ) : EReal) := by
  induction n with
  | zero => simp
  | succ n ih => rw [succ_nsmul, ih, ← EReal.coe_add]; congr 1; push_cast; ring

/-- The constant the kernel adds per tile, `23056124157 / 2^52`, is `512 · 9999` floors. -/
theorem tile_floors : ((23056124157 / 4503599627370496 : ℝ) : EReal) = (5119488 : ℕ) • floorE := by
  rw [floorE_eq, nsmul_coe]; congr 1; norm_num

variable {nB nC nD : ℕ}

/-- The squared norm of row `i`. -/
def sqnorm (A : Fin nB → Fin nD → EReal) (i : Fin nB) : EReal := ∑ k : Fin nD, A i k * A i k

/-- The inner product of row `b` of `X` with row `c` of `C`. -/
def inner (X : Fin nB → Fin nD → EReal) (C : Fin nC → Fin nD → EReal) (b : Fin nB) (c : Fin nC) : EReal :=
  ∑ k : Fin nD, X b k * C c k

/-- The squared distance of row `b` to center `c`, as both programs group it: the two norms, less twice the inner product. -/
def dist (X : Fin nB → Fin nD → EReal) (C : Fin nC → Fin nD → EReal) (b : Fin nB) (c : Fin nC) : EReal :=
  (sqnorm X b + sqnorm C c) - twoE * inner X C b c

/-- A row's own contribution: its clipped distance to the center of its class. -/
def rowLoss (X : Fin nB → Fin nD → EReal) (C : Fin nC → Fin nD → EReal) (l : Fin nB → Fin nC) (b : Fin nB) : EReal :=
  clip (dist X C b (l b))

/-- ONE ROW OF THE MASKED MATRIX. Over the cells of a row, the clipped product with the one-hot mask sums to the
    clipped value at the hot cell plus one floor per other cell. -/
theorem row_cells {n : ℕ} (f : Fin (n + 1) → EReal) (l : Fin (n + 1)) :
    ∑ c : Fin (n + 1), clip (f c * (if c = l then (1 : EReal) else 0)) = clip (f l) + n • floorE := by
  rw [← Finset.add_sum_erase Finset.univ _ (Finset.mem_univ l)]
  congr 1
  · rw [if_pos rfl, mul_one]
  · rw [Finset.sum_congr rfl (g := fun _ => floorE) (fun c hc => by
      rw [if_neg (Finset.ne_of_mem_erase hc), mul_zero, clip_zero])]
    rw [Finset.sum_const, Finset.card_erase_of_mem (Finset.mem_univ l), Finset.card_univ, Fintype.card_fin]
    rfl

/-- THE WHOLE MATRIX: the rows' own contributions and `9999` floors per row. -/
def total (X : Fin 8192 → Fin 256 → EReal) (C : Fin 10000 → Fin 256 → EReal) (l : Fin 8192 → Fin 10000) : EReal :=
  ∑ b : Fin 8192, (rowLoss X C l b + (9999 : ℕ) • floorE)

/-- Row `r` of tile `T`. -/
def tileRow (T : Fin 16) (r : Fin 512) : Fin 8192 := ⟨512 * T.val + r.val, by have := T.isLt; have := r.isLt; omega⟩

/-- THE TILES. Sixteen tiles of 512 rows, each adding its rows' contributions and `512 · 9999` floors, sum to the
    whole matrix. -/
theorem tiles_total (g : Fin 8192 → EReal) :
    ∑ T : Fin 16, ((∑ r : Fin 512, g (tileRow T r)) + (5119488 : ℕ) • floorE)
      = ∑ b : Fin 8192, (g b + (9999 : ℕ) • floorE) := by
  have hk : (5119488 : ℕ) • floorE = ∑ _r : Fin 512, (9999 : ℕ) • floorE := by
    rw [Finset.sum_const, Finset.card_univ, Fintype.card_fin, ← mul_nsmul]
  simp only [hk, ← Finset.sum_add_distrib]
  rw [← Finset.sum_product' (f := fun T r => g (tileRow T r) + (9999 : ℕ) • floorE)]
  refine Finset.sum_equiv (finProdFinEquiv (m := 16) (n := 512)) (by simp) ?_
  rintro ⟨T, r⟩ _
  have : finProdFinEquiv (m := 16) (n := 512) (T, r) = tileRow T r := by
    apply Fin.ext; simp [finProdFinEquiv, tileRow]; omega
  rw [this]

end CenterLoss

end
-- ==== Proof.RefValue.lean ====
/-
  The reference's side of the center loss, read at the extended reals.

  The reference forms the whole 8192 × 10000 matrix of squared distances `‖x_b‖² + ‖c‖² − 2⟨x_b, c⟩`, multiplies it
  by the one-hot mask of the labels, clips every cell into `[floor, cap]`, sums every cell and divides by 8192.
  Read one cell at a time, the cell of row `b` and column `c` is `clip (dist b c · [c = label b])`; a row therefore
  sums to its clipped label distance and one floor per other cell, and the whole matrix to `CenterLoss.total`.
-/
import proofs.«412466_j9448928051410_3_alg».proof.Proof.Gen.ReferenceIdeal.Read
import proofs.«412466_j9448928051410_3_alg».proof.Proof.Spec
import Idealize.ShloMosaic.Lib.ValueIdx
import Idealize.ShloMosaic.Lib.StableHlo.Predicate
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo
open scoped BigOperators

/-- The features as a matrix of extended reals. -/
abbrev X (x0 : (⟨S8192x256, .f32⟩ : BufTy).Contents (Elt Ideal)) : Fin 8192 → Fin 256 → EReal :=
  fun b k => x0 (ValueIdx.ix2 b k)
/-- The class centers as a matrix of extended reals. -/
abbrev C (x2 : (⟨S10000x256, .f32⟩ : BufTy).Contents (Elt Ideal)) : Fin 10000 → Fin 256 → EReal :=
  fun c k => x2 (ValueIdx.ix2 c k)

/-- The broadcast row norms: the cell of row `b` holds `‖x_b‖²`, whatever the column. -/
theorem cell_v6 (x0 : (⟨S8192x256, .f32⟩ : BufTy).Contents (Elt Ideal)) (b : Fin 8192) (c : Fin 10000) :
    val_main_v6 (F := Ideal) x0 (ValueIdx.ix2 b c) = CenterLoss.sqnorm (X x0) b := by
  rw [val_main_v6_apply, val_main_v2_apply, val_main_v1_apply, val_main_cst_apply, Ideal.ofBits_def,
    Ideal.ofBits_zero_f32, zero_add]
  unfold CenterLoss.sqnorm
  refine Finset.sum_congr rfl fun k _ => ?_
  rw [val_main_v0_apply, Ideal.mulf_def]
  have e : idx_main_v1 (idx_main_v2 (idx_main_v6 (ValueIdx.ix2 b c))) k = ValueIdx.ix2 b k :=
    funext fun a => Fin.ext (by match a with | ⟨0, _⟩ => rfl | ⟨1, _⟩ => rfl)
  rw [e]

/-- The broadcast center norms: the cell of column `c` holds `‖center_c‖²`, whatever the row. -/
theorem cell_v7 (x2 : (⟨S10000x256, .f32⟩ : BufTy).Contents (Elt Ideal)) (b : Fin 8192) (c : Fin 10000) :
    val_main_v7 (F := Ideal) x2 (ValueIdx.ix2 b c) = CenterLoss.sqnorm (C x2) c := by
  rw [val_main_v7_apply, val_main_v5_apply, val_main_v4_apply, val_main_cst_0_apply, Ideal.ofBits_def,
    Ideal.ofBits_zero_f32, zero_add]
  unfold CenterLoss.sqnorm
  refine Finset.sum_congr rfl fun k _ => ?_
  rw [val_main_v3_apply, Ideal.mulf_def]
  have e : idx_main_v4 (idx_main_v5 (idx_main_v7 (ValueIdx.ix2 b c))) k = ValueIdx.ix2 c k :=
    funext fun a => Fin.ext (by match a with | ⟨0, _⟩ => rfl | ⟨1, _⟩ => rfl)
  rw [e]

/-- The matrix product: the cell of row `b` and column `c` is the inner product of `x_b` with `center_c`. -/
theorem cell_v9 (x0 : (⟨S8192x256, .f32⟩ : BufTy).Contents (Elt Ideal)) (x2 : (⟨S10000x256, .f32⟩ : BufTy).Contents (Elt Ideal))
    (b : Fin 8192) (c : Fin 10000) :
    val_main_v9 (F := Ideal) x0 x2 (ValueIdx.ix2 b c) = CenterLoss.inner (X x0) (C x2) b c := by
  rw [val_main_v9_apply]
  unfold CenterLoss.inner
  refine Finset.sum_congr rfl fun k _ => ?_
  have el : lidx_main_v9 (ValueIdx.ix2 b c) k = ValueIdx.ix2 b k :=
    funext fun a => Fin.ext (by match a with | ⟨0, _⟩ => rfl | ⟨1, _⟩ => rfl)
  have er : ridx_main_v9 (ValueIdx.ix2 b c) k = ValueIdx.ix2 c k :=
    funext fun a => Fin.ext (by match a with | ⟨0, _⟩ => rfl | ⟨1, _⟩ => rfl)
  rw [el, er]

/-- The distance matrix: the two norms, less twice the inner product. -/
theorem cell_v12 (x0 : (⟨S8192x256, .f32⟩ : BufTy).Contents (Elt Ideal)) (x2 : (⟨S10000x256, .f32⟩ : BufTy).Contents (Elt Ideal))
    (b : Fin 8192) (c : Fin 10000) :
    val_main_v12 (F := Ideal) x0 x2 (ValueIdx.ix2 b c) = CenterLoss.dist (X x0) (C x2) b c := by
  rw [val_main_v12_apply, val_main_v8_apply, val_main_v11_apply, val_main_v10_apply, val_main_cst_1_apply,
    Ideal.subf_def, Ideal.addf_def, Ideal.mulf_def, Ideal.ofBits_def, cell_v6, cell_v7, cell_v9]
  rfl

/-- The mask: the comparison of row `b`'s label with the column number, widened to a float, is `1` at the label's
    column and `0` elsewhere. Both words are the 32-bit words of numbers below `10000`, so they are equal exactly
    when the numbers are. -/
theorem cell_v19 (x1 : (⟨S8192, .i32⟩ : BufTy).Contents (Elt Ideal))
    (l : Fin 8192 → Fin 10000) (hl : ∀ b : Fin 8192, x1 (ValueIdx.ix1 b) = BitVec.ofNat 32 (l b).val)
    (b : Fin 8192) (c : Fin 10000) :
    val_main_v19 (F := Ideal) x1 (ValueIdx.ix2 b c) = (if c = l b then (1 : EReal) else 0) := by
  rw [val_main_v19_apply, val_main_v18_apply, val_main_v16_apply, val_main_v13_apply, val_main_v17_apply,
    val_main_v15_apply, val_main_v14_apply]
  have e1 : idx_main_v13 (idx_main_v16 (ValueIdx.ix2 b c)) = ValueIdx.ix1 b :=
    funext fun a => Fin.ext (by match a with | ⟨0, _⟩ => rfl)
  have e2 : ((idx_main_v15 (idx_main_v17 (ValueIdx.ix2 b c))) 0).val = c.val := rfl
  rw [e1, e2, hl b]
  have hc := c.isLt
  have hlb := (l b).isLt
  by_cases h : c = l b
  · rw [if_pos h, h, Predicate.cmpi_eq_iff.mpr rfl]
    show (((1#1 : BitVec 1).toNat : ℝ) : EReal) = 1
    simp
  · rw [if_neg h]
    have hne : ¬ IntOp.cmpi .eq (BitVec.ofNat 32 (l b).val) (BitVec.ofNat 32 c.val) = 1#1 := by
      rw [Predicate.cmpi_eq_iff]
      intro he
      apply h
      apply Fin.ext
      have := congrArg BitVec.toNat he
      simp only [BitVec.toNat_ofNat] at this
      omega
    rw [ValueIdx.eq_zero_of_ne_one hne]
    show (((0#1 : BitVec 1).toNat : ℝ) : EReal) = 0
    simp

/-- ONE CELL of the clipped, masked matrix. -/
theorem cell_v21 (x0 : (⟨S8192x256, .f32⟩ : BufTy).Contents (Elt Ideal)) (x1 : (⟨S8192, .i32⟩ : BufTy).Contents (Elt Ideal))
    (x2 : (⟨S10000x256, .f32⟩ : BufTy).Contents (Elt Ideal))
    (l : Fin 8192 → Fin 10000) (hl : ∀ b : Fin 8192, x1 (ValueIdx.ix1 b) = BitVec.ofNat 32 (l b).val)
    (b : Fin 8192) (c : Fin 10000) :
    val_main_v21 (F := Ideal) x0 x1 x2 (ValueIdx.ix2 b c)
      = CenterLoss.clip (CenterLoss.dist (X x0) (C x2) b c * (if c = l b then (1 : EReal) else 0)) := by
  rw [val_main_v21_apply, val_main_call0_v4_apply, val_main_call0_v3_apply, val_main_cst_3_apply,
    val_main_call0_v2_apply, val_main_call0_v1_apply, val_main_call0_v0_apply, val_main_cst_2_apply,
    val_main_v20_apply, Ideal.minimumf_def, Ideal.maximumf_def, Ideal.mulf_def, Ideal.ofBits_def, Ideal.ofBits_def,
    cell_v12, cell_v19 x1 l hl]
  rfl

/-- THE SUM OF EVERY CELL is the total loss before the division. -/
theorem ref_sum (x0 : (⟨S8192x256, .f32⟩ : BufTy).Contents (Elt Ideal)) (x1 : (⟨S8192, .i32⟩ : BufTy).Contents (Elt Ideal))
    (x2 : (⟨S10000x256, .f32⟩ : BufTy).Contents (Elt Ideal))
    (l : Fin 8192 → Fin 10000) (hl : ∀ b : Fin 8192, x1 (ValueIdx.ix1 b) = BitVec.ofNat 32 (l b).val) :
    Cert.ReferenceIdeal.Read.val_main_v22 (F := Ideal) x0 x1 x2
      = fun _ => CenterLoss.total (fun b k => x0 (ValueIdx.ix2 b k)) (fun c k => x2 (ValueIdx.ix2 c k)) l := by
  funext i
  rw [val_main_v22_apply, val_main_cst_4_apply, Ideal.ofBits_def, Ideal.ofBits_zero_f32, zero_add, ValueIdx.sum_idx2]
  unfold CenterLoss.total CenterLoss.rowLoss
  refine Finset.sum_congr rfl fun b _ => ?_
  rw [Finset.sum_congr rfl fun c _ => cell_v21 x0 x1 x2 l hl b c]
  exact CenterLoss.row_cells (n := 9999) (fun c => CenterLoss.dist (X x0) (C x2) b c) (l b)

/-- THE RESULT: that total divided by the row count `8192`. -/
theorem ref_result (x0 : (⟨S8192x256, .f32⟩ : BufTy).Contents (Elt Ideal)) (x1 : (⟨S8192, .i32⟩ : BufTy).Contents (Elt Ideal))
    (x2 : (⟨S10000x256, .f32⟩ : BufTy).Contents (Elt Ideal))
    (l : Fin 8192 → Fin 10000) (hl : ∀ b : Fin 8192, x1 (ValueIdx.ix1 b) = BitVec.ofNat 32 (l b).val) :
    Cert.ReferenceIdeal.Read.val_main_v23 (F := Ideal) x0 x1 x2
      = Host.divf (F := Ideal) (fun _ => CenterLoss.total (fun b k => x0 (ValueIdx.ix2 b k)) (fun c k => x2 (ValueIdx.ix2 c k)) l)
          (constant (F := Ideal) Cert.ReferenceIdeal.S_ .f32 0x46000000#32) := by
  unfold val_main_v23
  rw [ref_sum x0 x1 x2 l hl]
  rfl

end Cert.ReferenceIdeal.RefValue

end
-- ==== Proof.KLoopDef.lean ====
/-
  The kernel's inner loop over the eight chunks of 1280 classes, as a recursion on the trip.

  Trip `k` loads rows `1280 k … 1280 k + 1279` of the padded centers (`chunk`), multiplies the tile's rows by them,
  keeps in each row only the product at the row's own label when that label lies in the chunk, and adds the row's
  kept value to the carried column. `labelDots … k` is the carried column before trip `k`; after the eight trips
  it holds, per row, the inner product of the row with the center of its label.
-/
import proofs.«412466_j9448928051410_3_alg».proof.Proof.Gen.KernelIdeal.Loops
import Idealize.ShloMosaic.Lib.Pipeline.FrameBody

noncomputable section

open Idealize.ShloMosaic Idealize.ShloMosaic.TcCoe Idealize.SL.Sem

namespace Cert.KernelIdeal.Loop

open Cert.KernelIdeal Cert.KernelIdeal.Gen

variable {F : FTy → Type} [FloatOps F] [Named F]

/-- The loop makes eight trips. -/
theorem trips_eq : k0_t1_loop.trips = 8 := by decide +kernel

/-- Rows `1280 k … 1280 k + 1279` of the padded centers: what trip `k` loads. -/
def chunk (x3 : Vec F S10240x256 .bf16) (k : Fin k0_t1_loop.trips) : Vec F S1280x256 .bf16 :=
  View.ld x3 (Rect.unit (s := S10240x256) (k0_off1 k) S1280x256.size (k0_off1_inb k))

/-- The carried column before trip `k`: zero before the first, then each trip's payload of the column before it. -/
def labelDots (v3 : Vec F S512x256 .f32) (v8 : Vec F S512x1 .i32) (x3 : Vec F S10240x256 .bf16) : ℕ → FVec F S512x1 .f32
  | 0 => k0_pay3
  | k + 1 =>
    if h : k < k0_t1_loop.trips then k0_pay4 v3 v8 ⟨k, h⟩ (labelDots v3 v8 x3 k) (chunk x3 ⟨k, h⟩)
    else labelDots v3 v8 x3 k

/-- One trip of the loop, as the run found it, is the payload of the carried column and the loaded chunk. -/
theorem trip_eq (𝒱 : Variants) (c : Dev nD) (bd : Option 𝒱.V) (i : grid0.Coords) (arg2 : Memref sig .tc .vmem S512x256 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S10240x256 .bf16) (harg5 : arg5.IsWhole) (arg6 : Memref sig .tc .vmem S1x128 .f32) (harg6 : arg6.IsWhole) (arg7 : Memref sig .tc .vmem S1x1 .f32) (harg7 : arg7.IsWhole) (v3 : Vec F S512x256 .f32) (v8 : Vec F S512x1 .i32) (x3 : Vec F S10240x256 .bf16) (k : Fin k0_t1_loop.trips) (acc : FVec F S512x1 .f32) :
    tripR_k0_t1 (F := F) 𝒱 c bd i arg2 harg2 arg3 harg3 arg4 harg4 arg5 harg5 arg6 harg6 arg7 harg7 v3 v8 (harg5.unread x3) k acc
      = k0_pay4 v3 v8 k acc (chunk x3 k) := by
  unfold tripR_k0_t1 trip_k0_t1
  dsimp only
  sl_unfold_words
  unfold chunk
  rw [View.readAt_eq_ld, harg5.read_unread]
  rfl

/-- The loop's carried value before trip `k`, as the run states it, is the recursion. -/
theorem st_eq (𝒱 : Variants) (c : Dev nD) (bd : Option 𝒱.V) (i : grid0.Coords) (arg2 : Memref sig .tc .vmem S512x256 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S10240x256 .bf16) (harg5 : arg5.IsWhole) (arg6 : Memref sig .tc .vmem S1x128 .f32) (harg6 : arg6.IsWhole) (arg7 : Memref sig .tc .vmem S1x1 .f32) (harg7 : arg7.IsWhole) (v3 : Vec F S512x256 .f32) (v8 : Vec F S512x1 .i32) (x3 : Vec F S10240x256 .bf16) :
    ∀ k : ℕ, st_k0_t1 (F := F) 𝒱 c bd i arg2 harg2 arg3 harg3 arg4 harg4 arg5 harg5 arg6 harg6 arg7 harg7 v3 v8 (harg5.unread x3) k0_pay3 k
      = labelDots v3 v8 x3 k
  | 0 => rfl
  | k + 1 => by
    rw [st_k0_t1.eq_2, st_eq 𝒱 c bd i arg2 harg2 arg3 harg3 arg4 harg4 arg5 harg5 arg6 harg6 arg7 harg7 v3 v8 x3 k]
    unfold st_k0_t1Step
    rw [labelDots]
    by_cases h : k < k0_t1_loop.trips
    · rw [dif_pos h, dif_pos h, trip_eq]
    · rw [dif_neg h, dif_neg h]

end Cert.KernelIdeal.Loop

end
-- ==== Proof.KPieces.lean ====
/-
  What one grid point leaves behind, as values.

  A grid point's body computes, from the tile's feature rows `x0`, label column `x1`, center-norm column `x2` and the
  padded centers `x3`, the tile's sum (the payload of its one accumulating store) and adds it to the accumulator's
  previous contents `prev`: `accAfter`. At a core's first tile the previous contents are the zero block the body has
  just stored; at a core's last tile the output block is the lane pattern of the new accumulator.
-/
import proofs.«412466_j9448928051410_3_alg».proof.Proof.Gen.KernelIdeal.Frame
import proofs.«412466_j9448928051410_3_alg».proof.Proof.KLoopDef
import Idealize.ShloMosaic.Lib.Pipeline.Value
import Idealize.ShloMosaic.Lib.ValueIdx
import Idealize.ShloMosaic.Lib.Tactic

noncomputable section
open Idealize.ShloMosaic Idealize.ShloMosaic.TcCoe Idealize.SL.Sem
open Idealize.ShloMosaic.Pipeline (Dat)

namespace Cert.KernelIdeal.Pieces
open Cert.KernelIdeal Cert.KernelIdeal.Gen Cert.KernelIdeal.Loop

variable {F : FTy → Type} [FloatOps F] [Named F]

/-- The accumulator after a tile, from its contents before it. -/
def accAfter (x0 : Vec F S512x256 .f32) (x1 : Vec F S512x1 .i32) (x2 : Vec F S512x1 .f32) (x3 : Vec F S10240x256 .bf16)
    (prev : Vec F S1x1 .f32) : Vec F S1x1 .f32 :=
  k0_pay5 x0 x2 (labelDots x0 x1 x3 k0_t1_loop.trips) prev

theorem hz : (![0, 0] : Fin 2 → Nat) = fun _ => 0 := funext fun a => by fin_cases a <;> rfl

/-- A core's first tile: the accumulator is zeroed, then the tile is added. -/
theorem sout_A (c : Dev nD) (i : grid0.Coords) (arg2 : Memref sig .tc .vmem S512x256 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S10240x256 .bf16) (harg5 : arg5.IsWhole) (arg6 : Memref sig .tc .vmem S1x128 .f32) (harg6 : arg6.IsWhole) (arg7 : Memref sig .tc .vmem S1x1 .f32) (harg7 : arg7.IsWhole) (hc0 : cond0_0 i) (hc1 : ¬cond0_1 i) (x0 : Vec F S512x256 .f32) (x1 : Vec F S512x1 .i32) (x2 : Vec F S512x1 .f32) (x3 : Vec F S10240x256 .bf16) :
    sout0_A_0 c i arg2 harg2 arg3 harg3 arg4 harg4 arg5 harg5 arg6 harg6 arg7 harg7 hc0 hc1 x0 x1 x2 x3 = accAfter x0 x1 x2 x3 k0_pay2 := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S1x1) hz, View.readCov_unit_zero (S := S1x1) _ hz]
  simp only [View.readAt_eq_ld, harg2.read_unread, harg3.read_unread, harg4.read_unread, harg7.read_unread,
    View.ld_unit_zero (S := S512x256) hz, View.ld_unit_zero (S := S512x1) hz, View.ld_unit_zero (S := S1x1) hz]
  rw [st_eq]
  rfl

/-- A middle tile: the tile is added to what the tile before left. -/
theorem sout_B (c : Dev nD) (i : grid0.Coords) (arg2 : Memref sig .tc .vmem S512x256 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S10240x256 .bf16) (harg5 : arg5.IsWhole) (arg6 : Memref sig .tc .vmem S1x128 .f32) (harg6 : arg6.IsWhole) (arg7 : Memref sig .tc .vmem S1x1 .f32) (harg7 : arg7.IsWhole) (hc0 : ¬cond0_0 i) (hc1 : ¬cond0_1 i) (x0 : Vec F S512x256 .f32) (x1 : Vec F S512x1 .i32) (x2 : Vec F S512x1 .f32) (x3 : Vec F S10240x256 .bf16) (xs0 : Vec F S1x1 .f32) :
    sout0_B_0 c i arg2 harg2 arg3 harg3 arg4 harg4 arg5 harg5 arg6 harg6 arg7 harg7 hc0 hc1 x0 x1 x2 x3 xs0 = accAfter x0 x1 x2 x3 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero (S := S1x1) hz]
  simp only [View.readAt_eq_ld, harg2.read_unread, harg3.read_unread, harg4.read_unread, harg7.read_unread,
    View.ld_unit_zero (S := S512x256) hz, View.ld_unit_zero (S := S512x1) hz, View.ld_unit_zero (S := S1x1) hz]
  rw [st_eq]
  rfl

/-- A core's last tile leaves the same in the accumulator, -/
theorem sout_C (c : Dev nD) (i : grid0.Coords) (arg2 : Memref sig .tc .vmem S512x256 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S10240x256 .bf16) (harg5 : arg5.IsWhole) (arg6 : Memref sig .tc .vmem S1x128 .f32) (harg6 : arg6.IsWhole) (arg7 : Memref sig .tc .vmem S1x1 .f32) (harg7 : arg7.IsWhole) (hc0 : ¬cond0_0 i) (hc1 : cond0_1 i) (x0 : Vec F S512x256 .f32) (x1 : Vec F S512x1 .i32) (x2 : Vec F S512x1 .f32) (x3 : Vec F S10240x256 .bf16) (xs0 : Vec F S1x1 .f32) :
    sout0_C_0 c i arg2 harg2 arg3 harg3 arg4 harg4 arg5 harg5 arg6 harg6 arg7 harg7 hc0 hc1 x0 x1 x2 x3 xs0 = accAfter x0 x1 x2 x3 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero (S := S1x1) hz]
  simp only [View.readAt_eq_ld, harg2.read_unread, harg3.read_unread, harg4.read_unread, harg7.read_unread,
    View.ld_unit_zero (S := S512x256) hz, View.ld_unit_zero (S := S512x1) hz, View.ld_unit_zero (S := S1x1) hz]
  rw [st_eq]
  rfl

/-- and writes the output block: the new accumulator in lane 0, zero in the other lanes. -/
theorem out_C (c : Dev nD) (i : grid0.Coords) (arg2 : Memref sig .tc .vmem S512x256 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S10240x256 .bf16) (harg5 : arg5.IsWhole) (arg6 : Memref sig .tc .vmem S1x128 .f32) (harg6 : arg6.IsWhole) (arg7 : Memref sig .tc .vmem S1x1 .f32) (harg7 : arg7.IsWhole) (hc0 : ¬cond0_0 i) (hc1 : cond0_1 i) (x0 : Vec F S512x256 .f32) (x1 : Vec F S512x1 .i32) (x2 : Vec F S512x1 .f32) (x3 : Vec F S10240x256 .bf16) (xs0 : Vec F S1x1 .f32) :
    out0_C_4 c i arg2 harg2 arg3 harg3 arg4 harg4 arg5 harg5 arg6 harg6 arg7 harg7 hc0 hc1 x0 x1 x2 x3 xs0 = k0_pay1 (accAfter x0 x1 x2 x3 xs0) := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero (S := S1x128) hz, View.readCov_unit_zero (S := S1x1) _ hz]
  simp only [View.readAt_eq_ld, harg2.read_unread, harg3.read_unread, harg4.read_unread, harg7.read_unread,
    View.ld_unit_zero (S := S512x256) hz, View.ld_unit_zero (S := S512x1) hz, View.ld_unit_zero (S := S1x1) hz]
  rw [st_eq]
  rfl

end Cert.KernelIdeal.Pieces

end
-- ==== Proof.KChain.lean ====
/-
  The accumulator across the grid, as a fold.

  Each core walks its eight tiles in order; the accumulator after a tile is `accAfter` of the tile's four blocks and
  of the accumulator before it, and before a core's first tile it is the zero block. So after tile `t` it is the fold
  of `accAfter` over the tiles `8 (t / 8) … t` from zero, and the block a core's last tile writes out is the lane
  pattern of the folded accumulator.
-/
import proofs.«412466_j9448928051410_3_alg».proof.Proof.KPieces

noncomputable section
open Idealize.ShloMosaic Idealize.ShloMosaic.TcCoe Idealize.SL.Sem
open Idealize.ShloMosaic.Pipeline (Dat)

namespace Cert.KernelIdeal.Chain
open Cert.KernelIdeal Cert.KernelIdeal.Gen Cert.KernelIdeal.Loop Cert.KernelIdeal.Pieces

variable {F : FTy → Type} [FloatOps F] [Named F]
variable (m : (ℓ : Loc nD τ sig) → Buf (Elt F) ℓ)

/-- The accumulator after tile `n` from its contents before it: `accAfter` at the tile's four blocks. -/
def step (c : Dev nD) (n : ℕ) (h : n < cfg0.N) (prev : Vec F S1x1 .f32) : Vec F S1x1 .f32 :=
  accAfter (iblk m c 0 ⟨n, h⟩) (iblk m c 1 ⟨n, h⟩) (iblk m c 2 ⟨n, h⟩) (iblk m c 3 ⟨n, h⟩) prev

/-- The accumulator's contents after tile `n`. -/
def scr (c : Dev nD) (n : ℕ) (h : n < cfg0.N) : Vec F S1x1 .f32 := (outsAt0 m c n h).2

/-- At a core's first tile the accumulator restarts from zero. -/
theorem scr_reset (c : Dev nD) (n : ℕ) (h : n < cfg0.N) (h0 : n % 8 = 0) : scr m c n h = step m c n h k0_pay2 := by
  have h1 : ¬(⟨n, h⟩ : Fin cfg0.N).val % 8 = 7 := by dsimp only; omega
  unfold scr step
  rw [outsAt0_A m c ⟨n, h⟩ h0 h1]
  dsimp only
  exact sout_A c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) scM0_0 (Memref.isWhole_whole _) ((hcond0_0 ⟨n, h⟩).mpr h0) (fun hh => h1 ((hcond0_1 ⟨n, h⟩).mp hh)) (iblk m c 0 ⟨n, h⟩) (iblk m c 1 ⟨n, h⟩) (iblk m c 2 ⟨n, h⟩) (iblk m c 3 ⟨n, h⟩)

/-- At every other tile it continues from the tile before. -/
theorem scr_step (c : Dev nD) (n : ℕ) (h : n + 1 < cfg0.N) (h0 : ¬(n + 1) % 8 = 0) :
    scr m c (n + 1) h = step m c (n + 1) h (scr m c n (Nat.lt_of_succ_lt h)) := by
  have h0' : ¬(⟨n + 1, h⟩ : Fin cfg0.N).val % 8 = 0 := h0
  by_cases h1 : (⟨n + 1, h⟩ : Fin cfg0.N).val % 8 = 7
  · unfold scr step
    rw [outsAt0_C m c ⟨n + 1, h⟩ h0' h1]
    dsimp only
    exact sout_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) (fun hh => h0' ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (iblk m c 3 ⟨n + 1, h⟩) (outsAt0 m c n (Nat.lt_of_succ_lt h)).2
  · unfold scr step
    rw [outsAt0_B m c ⟨n + 1, h⟩ h0' h1]
    dsimp only
    exact sout_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) (fun hh => h0' ((hcond0_0 ⟨n + 1, h⟩).mp hh)) (fun hh => h1 ((hcond0_1 ⟨n + 1, h⟩).mp hh)) (iblk m c 0 ⟨n + 1, h⟩) (iblk m c 1 ⟨n + 1, h⟩) (iblk m c 2 ⟨n + 1, h⟩) (iblk m c 3 ⟨n + 1, h⟩) (outsAt0 m c n (Nat.lt_of_succ_lt h)).2

/-- THE FOLD: after tile `t` the accumulator is the fold of the tiles `8 (t / 8) … t` from zero. -/
theorem scr_fold (c : Dev nD) (t : ℕ) (ht : t < cfg0.N) (h' : 8 * (t / 8) + t % 8 < cfg0.N) :
    scr m c t ht = Pipeline.accAt (fun n h => step m c n h k0_pay2) (fun n h prev => step m c n h prev) (8 * (t / 8)) (t % 8) h' :=
  Pipeline.eq_accAt_of_mod (scr m c) 8 (fun n h => step m c n h k0_pay2) (fun n h prev => step m c n h prev)
    (scr_reset m c) (scr_step m c) (by norm_num) t ht h'

/-- A core's last tile writes out the lane pattern of the accumulator it has just updated. -/
theorem out_last (c : Dev nD) (t : Fin cfg0.N) (h1 : t.val % 8 = 7) :
    (outsAt0 m c t.val t.isLt).1 = k0_pay1 (scr m c t.val t.isLt) := by
  have h0 : ¬t.val % 8 = 0 := by omega
  unfold scr
  rw [outsAt0_C m c t h0 h1]
  dsimp only
  rw [out_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun hh => h0 ((hcond0_0 t).mp hh)) ((hcond0_1 t).mpr h1) (iblk m c 0 t) (iblk m c 1 t) (iblk m c 2 t) (iblk m c 3 t) (outsAt0 m c (t.val - 1) (Nat.lt_of_le_of_lt (Nat.sub_le _ _) t.isLt)).2,
    sout_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun hh => h0 ((hcond0_0 t).mp hh)) ((hcond0_1 t).mpr h1) (iblk m c 0 t) (iblk m c 1 t) (iblk m c 2 t) (iblk m c 3 t) (outsAt0 m c (t.val - 1) (Nat.lt_of_le_of_lt (Nat.sub_le _ _) t.isLt)).2]

end Cert.KernelIdeal.Chain

end
-- ==== Proof.KPay.lean ====
/-
  The kernel's three small payloads read at an index, over the extended reals.

  A tile leaves in its one-cell accumulator what was there before, plus the sum over the tile's 512 rows of the clipped
  distance `clip ((‖x_r‖² + n_r) − 2 · p_r)` — `‖x_r‖²` the sum of the row's 256 squares, `n_r` the norm of the row's
  center and `p_r` the inner product the loop accumulated —, plus the constant that stands for the tile's `512 · 9999`
  floors (`pay5_apply`). The block a core's last tile writes holds the accumulator in lane 0 and zero in the other 127
  lanes (`pay1_apply`); the accumulator and the inner-product column both start from zero (`pay2_apply`, `pay3_apply`).
-/
import proofs.«412466_j9448928051410_3_alg».proof.Proof.Gen.KernelIdeal.Skeleton
import proofs.«412466_j9448928051410_3_alg».proof.Proof.Spec
import Idealize.ShloMosaic.Lib.ValueIdx
import Idealize.ShloMosaic.Lib.Pipeline.Value
import Idealize.ShloMosaic.Lib.ValueLayout
import Idealize.ShloMosaic.Lib.StableHlo.Predicate
import Idealize.ShloMosaic.PureOps.Ideal.Laws
import Idealize.ShloMosaic.PureOps.IdealRules

noncomputable section

namespace Cert.KernelIdeal.Pay

open Cert.KernelIdeal Cert.KernelIdeal.Gen Idealize.ShloMosaic Idealize.ShloMosaic.ValueIdx
open scoped BigOperators

/-! ## Layout and reduction at an index -/

/-- A vector of length `a` cast to an `[a, 1]` column reads, at `(i, u)`, the vector at `i`: the two row-major
    positions are `i` and `i · 1 + u` with `u = 0`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum along the lanes of a `[512, 256]` block, read at row `r`, is the sum of the row's 256 entries. -/
theorem laneSum_apply (x : FVec Ideal S512x256 .f32) (h : S512x256.Reduces [1] S512) (hφ : FKind.Formats .f32)
    (hacc : (0x00000000#32 : BitVec 32) = 0x00000000#32) (r : Fin 512) :
    multiReduction (F := Ideal) .add [1] S512 x 0x00000000#32 h hφ hacc (ix1 r) = ∑ d : Fin 256, x (ix2 r d) := by
  refine (Ideal.multiReduction_add_single x 0x00000000#32 h hφ hacc (ix1 r)).trans ?_
  refine Finset.sum_congr rfl fun d _ => congrArg x ?_
  funext a
  match a with
  | ⟨0, _⟩ => exact Fin.ext rfl
  | ⟨1, _⟩ => exact Fin.ext rfl

/-- The sum along the rows of a `[512, 1]` column, read at its one index, is the sum of the column's 512 entries. -/
theorem rowSum_apply (x : FVec Ideal S512x1 .f32) (h : S512x1.Reduces [0] S1) (hφ : FKind.Formats .f32)
    (hacc : (0x00000000#32 : BitVec 32) = 0x00000000#32) (u : Fin 1) :
    multiReduction (F := Ideal) .add [0] S1 x 0x00000000#32 h hφ hacc (ix1 u) = ∑ r : Fin 512, x (ix2 r 0) := by
  refine (Ideal.multiReduction_add_single x 0x00000000#32 h hφ hacc (ix1 u)).trans ?_
  refine Finset.sum_congr rfl fun r _ => congrArg x ?_
  funext a
  match a with
  | ⟨0, _⟩ => exact Fin.ext rfl
  | ⟨1, _⟩ => exact Fin.ext (by show (u : ℕ) = 0; omega)

/-! ## The lane-0 test -/

/-- Among the 128 lanes, the lane's word equals the zero word at lane 0 only, so a select on that test is the `if` on
    the lane. -/
theorem select_lane0 {α : Type} (lane : Fin 128) (A B : α) :
    Scalar.select (IntOp.cmpi .eq (BitVec.ofNat 32 lane.val) 0#32) A B = if lane.val = 0 then A else B := by
  by_cases h : lane.val = 0
  · rw [if_pos h, h]; rfl
  · rw [if_neg h]
    have hne : ¬ IntOp.cmpi .eq (BitVec.ofNat 32 lane.val) 0#32 = 1#1 := by
      intro hc
      have h2 : (BitVec.ofNat 32 lane.val).toNat = (BitVec.ofNat 32 0).toNat :=
        congrArg BitVec.toNat (StableHlo.Predicate.cmpi_eq_iff.mp hc)
      rw [BitVec.toNat_ofNat, BitVec.toNat_ofNat] at h2
      have := lane.isLt
      omega
    rw [eq_zero_of_ne_one hne, select_zero]

/-! ## The payloads -/

/-- The accumulator's first contents: zero. -/
theorem pay2_apply : k0_pay2 (F := Ideal) (ix2 0 0) = 0 := by
  unfold k0_pay2
  rw [shapeCast_self]
  exact Ideal.ofBits_zero_f32

/-- The inner-product column's first contents: zero in every row. -/
theorem pay3_apply (r : Fin 512) : k0_pay3 (F := Ideal) (ix2 r 0) = 0 := by
  unfold k0_pay3
  exact Ideal.ofBits_zero_f32

/-- The block a core's last tile writes: the accumulator in lane 0, zero in every other lane. -/
theorem pay1_apply (v39 : S1x1.Idx → EReal) (lane : Fin 128) :
    k0_pay1 (F := Ideal) v39 (ix2 0 lane) = if lane.val = 0 then v39 (ix2 0 0) else 0 := by
  unfold k0_pay1
  rw [select_apply, shapeCast_self, broadcast_apply]
  rw [broadcastTo_apply v39 _ (ix2 0 lane) (ix2 0 0) (fun a => match a with | ⟨0, _⟩ => rfl | ⟨1, _⟩ => rfl)]
  show Scalar.select (IntOp.cmpi .eq (iota .tc S1x128 32 [1] _ (ix2 0 lane)) 0#32) (v39 (ix2 0 0)) (Ideal.ofBits .f32 0x00000000#32) = _
  rw [iota_single_apply, Ideal.ofBits_zero_f32]
  exact select_lane0 lane _ _

/-- What a tile leaves in the accumulator: its previous contents, plus the tile's 512 clipped distances and the tile's
    `512 · 9999` floors. -/
theorem pay5_apply (v3 : S512x256.Idx → EReal) (v10 v15 : S512x1.Idx → EReal) (v28 : S1x1.Idx → EReal) :
    k0_pay5 (F := Ideal) v3 v10 v15 v28 (ix2 0 0)
      = v28 (ix2 0 0) + ((∑ r : Fin 512, CenterLoss.clip (((∑ d : Fin 256, v3 (ix2 r d) * v3 (ix2 r d)) + v10 (ix2 r 0))
            - CenterLoss.twoE * v15 (ix2 r 0)))
          + (5119488 : ℕ) • CenterLoss.floorE) := by
  unfold k0_pay5
  rw [shapeCast_self, addf_apply, addf_apply, broadcast_apply]
  congr 1
  congr 1
  · rw [shapeCast_a_a1_apply, rowSum_apply]
    refine Finset.sum_congr rfl fun r _ => ?_
    rw [minimumf_apply, maximumf_apply, broadcast_apply, broadcast_apply, subf_apply, mulf_apply, broadcast_apply,
      addf_apply, shapeCast_self, shapeCast_a_a1_apply, laneSum_apply]
    rfl
  · exact (IdealRules.named_const.ideal_named_scalar _ _ _ _ rfl).trans CenterLoss.tile_floors

end Cert.KernelIdeal.Pay

end
-- ==== Proof.KArray.lean ====
/-
  The kernel's output array after the run.

  Only a core's last tile writes its output block back: tile 7 writes lanes 0 … 127 of the [1, 256] array, tile 15
  lanes 128 … 255. Each block holds the core's accumulator in its lane 0 and zero in its other lanes. So the array
  ends with the first core's accumulator in lane 0, the second core's in lane 128, and zero elsewhere.
-/
import proofs.«412466_j9448928051410_3_alg».proof.Proof.KChain
import proofs.«412466_j9448928051410_3_alg».proof.Proof.KPay

noncomputable section
open Idealize.ShloMosaic Idealize.ShloMosaic.TcCoe Idealize.SL.Sem
open Idealize.ShloMosaic.Pipeline (Dat)

namespace Cert.KernelIdeal.Array
open Cert.KernelIdeal Cert.KernelIdeal.Gen Cert.KernelIdeal.Chain Idealize.ShloMosaic.ValueIdx

variable (m : (ℓ : Loc nD τ sig) → Buf (Elt Ideal) ℓ)

/-- A core's accumulator after its last tile `t` (7 or 15), as an extended real. -/
def acc (c : Dev nD) (t : Fin cfg0.N) : EReal := (scr m c t.val t.isLt : S1x1.Idx → EReal) (ix2 0 0)

/-- The array the run leaves: lane 0 the first core's accumulator, lane 128 the second core's, zero elsewhere. -/
def lanes (c : Dev nD) : S1x256.Idx → EReal := fun i =>
  if (i 1).val = 0 then acc m c t0_7 else if (i 1).val = 128 then acc m c t0_15 else 0

/-- Output block `t` sits at lanes `128 (t / 8) …` of row 0. -/
theorem idx4 : ∀ t : Fin cfg0.N, win0_4.index t (0 : Fin 2) = 0 ∧ win0_4.index t (1 : Fin 2) = t.val / 8 :=
  (by decide +kernel : ∀ t : Fin grid0.N, _)

/-- The block a tile writes out, read at a lane: the tile's accumulator in lane 0, zero in the others. -/
theorem pay1_lanes (c : Dev nD) (t : Fin cfg0.N) (y : S1x128.Idx) :
    (k0_pay1 (F := Ideal) (scr m c t.val t.isLt) : S1x128.Idx → EReal) y = if (y 1).val = 0 then acc m c t else 0 := by
  obtain ⟨p, q, rfl⟩ : ∃ (p : Fin 1) (q : Fin 128), y = ix2 p q := ⟨y 0, y 1, eq_ix2 y⟩
  obtain rfl : p = 0 := Subsingleton.elim _ _
  rw [Cert.KernelIdeal.Pay.pay1_apply]
  rfl

/-- What a core's last tile writes back is its block of `lanes`. -/
theorem flushed4_eq (c : Dev nD) (t : Fin cfg0.N) (hf : (cfg0.win 4).flush t = true) :
    (dats m 0 c).flushed 4 t = ((cfg0.win 4).blk t).view.read (Elt Ideal) (lanes m c) := by
  have h7 : t.val % 8 = 7 := (flush0_4 t).mp hf
  have hN : t.val < 16 := lt_of_lt_of_eq t.isLt N_0
  show (cfg0.win 4).cut (grid0.coords t) ((dats m 0 c).after 4 t) = _
  rw [after0_4, out_last m c t h7]
  obtain ⟨e0, e1⟩ := idx4 t
  funext j
  have hl : (j 1).val < 128 := (j 1).isLt
  show (k0_pay1 (F := Ideal) (scr m c t.val t.isLt) : S1x128.Idx → EReal) j = lanes m c (((cfg0.win 4).blk t).view.emb j)
  have hc : ((((cfg0.win 4).blk t).view.emb j) 1).val = t.val / 8 * 128 + (j 1).val := by
    show win0_4.index t (1 : Fin 2) * 128 + 1 * (j 1).val = _
    rw [e1]; omega
  refine (pay1_lanes m c t j).trans ?_
  unfold lanes
  rw [hc]
  have ht : t.val = 7 ∨ t.val = 15 := by omega
  rcases ht with ht | ht
  · obtain rfl : t = t0_7 := Fin.ext ht
    by_cases h0 : (j 1).val = 0
    · rw [if_pos h0, if_pos (by rw [h0]; rfl)]
    · rw [if_neg h0, if_neg (by show ¬(7 / 8 * 128 + (j 1).val = 0); omega), if_neg (by show ¬(7 / 8 * 128 + (j 1).val = 128); omega)]
  · obtain rfl : t = t0_15 := Fin.ext ht
    by_cases h0 : (j 1).val = 0
    · rw [if_pos h0, if_neg (by show ¬(15 / 8 * 128 + (j 1).val = 0); omega), if_pos (by show 15 / 8 * 128 + (j 1).val = 128; omega)]
    · rw [if_neg h0, if_neg (by show ¬(15 / 8 * 128 + (j 1).val = 0); omega), if_neg (by show ¬(15 / 8 * 128 + (j 1).val = 128); omega)]

/-- An index of the array is in tile `t`'s block iff each coordinate is in the block's range on its axis. -/
theorem mem_blk4 (t : Fin cfg0.N) (i : S1x256.Idx) :
    i ∈ ((cfg0.win 4).blk t).view.set ↔ ∀ a : Fin 2, win0_4.index t a * S1x128.size a ≤ (i a).val ∧ (i a).val < win0_4.index t a * S1x128.size a + S1x128.size a := by
  show i ∈ ((View.whole main_v13).slice (win0_4.rect t)).set ↔ _
  rw [View.set_slice_whole, Rect.mem_set_unit]
  exact Iff.rfl

/-- THE ARRAY after the run. -/
theorem final4 (c : Dev nD) : (dats m 0 c).arrAt 4 cfg0.N = lanes m c :=
  (dats m 0 c).arrAt_eq_of_cover 4 (lanes m c) (flushed4_eq m c) fun i => by
    have hi0 : (i 0).val < 1 := (i 0).isLt
    have hi1 : (i 1).val < 256 := (i 1).isLt
    by_cases h : (i 1).val < 128
    · refine ⟨t0_7, (flush0_4 t0_7).mpr rfl, ?_⟩
      rw [mem_blk4]
      obtain ⟨e0, e1⟩ := idx4 t0_7
      intro a
      match a with
      | ⟨0, _⟩ => show win0_4.index t0_7 (0 : Fin 2) * 1 ≤ (i 0).val ∧ (i 0).val < win0_4.index t0_7 (0 : Fin 2) * 1 + 1; rw [e0]; omega
      | ⟨1, _⟩ => show win0_4.index t0_7 (1 : Fin 2) * 128 ≤ (i 1).val ∧ (i 1).val < win0_4.index t0_7 (1 : Fin 2) * 128 + 128; rw [e1]; show 7 / 8 * 128 ≤ _ ∧ _ < 7 / 8 * 128 + 128; omega
    · refine ⟨t0_15, (flush0_4 t0_15).mpr rfl, ?_⟩
      rw [mem_blk4]
      obtain ⟨e0, e1⟩ := idx4 t0_15
      intro a
      match a with
      | ⟨0, _⟩ => show win0_4.index t0_15 (0 : Fin 2) * 1 ≤ (i 0).val ∧ (i 0).val < win0_4.index t0_15 (0 : Fin 2) * 1 + 1; rw [e0]; omega
      | ⟨1, _⟩ => show win0_4.index t0_15 (1 : Fin 2) * 128 ≤ (i 1).val ∧ (i 1).val < win0_4.index t0_15 (1 : Fin 2) * 128 + 128; rw [e1]; show 15 / 8 * 128 ≤ _ ∧ _ < 15 / 8 * 128 + 128; omega

end Cert.KernelIdeal.Array

end
-- ==== Proof.KLoop.lean ====
/-
  The kernel's inner loop at the ideal values: after its eight trips the carried column holds, at each row, the inner
  product of the row with the center of the row's class.

  Trip `k` multiplies the tile's 512 rows by rows `1280 k … 1280 k + 1279` of the padded centers, giving at row `r` and
  lane `q` the inner product `⟨X r, C (1280 k + q)⟩`; it keeps that product where the row's label is the class
  `1280 k + q` and puts `0` elsewhere, sums the 1280 lanes, and adds the sum to the carried value (`trip_apply`).
  Summed over the trips, the carried value at a row of label `n` is the double sum over `k < 8` and `q < 1280` of
  `⟨X r, C n⟩` kept where `1280 k + q = n` (`labelDots_apply`). For `n < 10240` exactly one pair has that property,
  `k = n / 1280` and `q = n mod 1280`, so the double sum is the single inner product (`labelDots_final`). Over the
  extended reals every step is exact: adding `0` changes nothing, and no order of summation matters.
-/
import proofs.«412466_j9448928051410_3_alg».proof.Proof.KLoopDef
import Idealize.ShloMosaic.Lib.ValueIdx
import Idealize.ShloMosaic.Lib.Pipeline.Value
import Idealize.ShloMosaic.Lib.ValueLayout
import Idealize.ShloMosaic.Lib.StableHlo.Predicate
import Idealize.ShloMosaic.PureOps.Ideal.Laws

noncomputable section

open Idealize.ShloMosaic Idealize.ShloMosaic.ValueIdx
open scoped BigOperators

namespace Cert.KernelIdeal.Loop

open Cert.KernelIdeal Cert.KernelIdeal.Gen

/-- Two 32-bit words of numbers below 2^32 are equal exactly when the numbers are. -/
theorem ofNat32_inj {a b : ℕ} (ha : a < 4294967296) (hb : b < 4294967296) :
    BitVec.ofNat 32 a = BitVec.ofNat 32 b ↔ a = b := by
  constructor
  · intro h
    have h' := congrArg BitVec.toNat h
    simp only [BitVec.toNat_ofNat] at h'
    omega
  · rintro rfl; rfl

/-- The class a lane of trip k compares against: the word of 1280 k + q. -/
theorem colWord (k : Fin k0_t1_loop.trips) (q : Fin 1280) :
    IntOp.addi (Scalar.muli (Scf.iv 0#32 1#32 k.val) 1280#32) (BitVec.ofNat 32 q.val)
      = BitVec.ofNat 32 (1280 * k.val + q.val) := by
  have hk : k.val < 8 := lt_of_lt_of_eq k.isLt trips_eq
  have hq := q.isLt
  apply BitVec.eq_of_toNat_eq
  simp only [IntOp.addi, Scalar.muli, IntOp.muli, Scf.iv, BitVec.toNat_add, BitVec.toNat_mul, BitVec.toNat_ofNat]
  omega

/-- A row's sum over the 1280 lanes, kept as a column. -/
theorem rowSum_apply (src : FVec Ideal S512x1280 .f32) (r : Fin 512) :
    shapeCast S512x1 (multiReduction (F := Ideal) .add [1] S512 src 0x00000000#32 reduces_S512x1280_S512 (.inl rfl) rfl)
        shapeCasts_S512_S512x1 (ix2 r 0)
      = ∑ q : Fin 1280, src (ix2 r q) := by
  rw [shapeCast_apply _ shapeCasts_S512_S512x1 (ix2 r 0) (ix1 r) (by
    rw [Shape.rowMajor_val_one, Shape.rowMajor_val_two]; show r.val = r.val * 1 + 0; omega)]
  refine (Ideal.multiReduction_add_single src 0x00000000#32 reduces_S512x1280_S512 (.inl rfl) rfl (ix1 r)).trans ?_
  show ∑ q : Fin 1280, src (reduces_S512x1280_S512.lift (ix1 r) q) = _
  refine Finset.sum_congr rfl fun q _ => congrArg src ?_
  funext a
  match a with
  | ⟨0, _⟩ => exact Fin.ext rfl
  | ⟨1, _⟩ => exact Fin.ext rfl

/-! ## The chunk's product at an index -/

theorem lhs_mm_0 (i : S512x1280.Idx) (q : dot_S512x256_S1280x256_S512x1280_1_1_0_0_n_n.contr.Idx) :
    (dot_S512x256_S1280x256_S512x1280_1_1_0_0_n_n.lhsIdx i q 0).val = (i 0).val := by
  unfold DotDims.lhsIdx
  rw [dif_neg (show ¬(0 : Fin S512x256.rank) ∈ dot_S512x256_S1280x256_S512x1280_1_1_0_0_n_n.lhsBatch by decide), dif_pos (show (0 : Fin S512x256.rank) ∈ dot_S512x256_S1280x256_S512x1280_1_1_0_0_n_n.lhsNonContracting by decide)]
  rfl
theorem lhs_mm_1 (i : S512x1280.Idx) (q : dot_S512x256_S1280x256_S512x1280_1_1_0_0_n_n.contr.Idx) :
    (dot_S512x256_S1280x256_S512x1280_1_1_0_0_n_n.lhsIdx i q 1).val = (q ⟨0, by decide⟩).val :=
  dot_S512x256_S1280x256_S512x1280_1_1_0_0_n_n.lhsIdx_val_of_single rfl i q
theorem rhs_mm_0 (i : S512x1280.Idx) (q : dot_S512x256_S1280x256_S512x1280_1_1_0_0_n_n.contr.Idx) :
    (dot_S512x256_S1280x256_S512x1280_1_1_0_0_n_n.rhsIdx i q 0).val = (i 1).val := by
  unfold DotDims.rhsIdx
  rw [dif_neg (show ¬(0 : Fin S1280x256.rank) ∈ dot_S512x256_S1280x256_S512x1280_1_1_0_0_n_n.rhsBatch by decide), dif_pos (show (0 : Fin S1280x256.rank) ∈ dot_S512x256_S1280x256_S512x1280_1_1_0_0_n_n.rhsNonContracting by decide)]
  rfl
theorem rhs_mm_1 (i : S512x1280.Idx) (q : dot_S512x256_S1280x256_S512x1280_1_1_0_0_n_n.contr.Idx) :
    (dot_S512x256_S1280x256_S512x1280_1_1_0_0_n_n.rhsIdx i q 1).val = (q ⟨0, by decide⟩).val :=
  dot_S512x256_S1280x256_S512x1280_1_1_0_0_n_n.rhsIdx_val_of_single rfl i q

/-- The product of the tile's rows with a chunk's rows, into the zero splat, at row r and lane q: the inner product of
    row r of the tile with row q of the chunk. -/
theorem mm_apply (a : FVec Ideal S512x256 .bf16) (b : FVec Ideal S1280x256 .bf16) (r : Fin 512) (q : Fin 1280) :
    matmul dot_S512x256_S1280x256_S512x1280_1_1_0_0_n_n none a b (constant (F := Ideal) S512x1280 .f32 0x00000000#32) (ix2 r q)
      = ∑ d : Fin 256, a (ix2 r d) * b (ix2 q d) := by
  simp only [matmul]
  rw [Ideal.matmul_constant_zero_apply, ← Equiv.sum_comp (ValueIdx.contrEquiv1 dot_S512x256_S1280x256_S512x1280_1_1_0_0_n_n 256 rfl rfl).symm]
  refine Finset.sum_congr rfl fun k _ => ?_
  have hk := ValueIdx.contrEquiv1_symm_val dot_S512x256_S1280x256_S512x1280_1_1_0_0_n_n 256 rfl rfl k
  have el : dot_S512x256_S1280x256_S512x1280_1_1_0_0_n_n.lhsIdx (ix2 r q) ((ValueIdx.contrEquiv1 dot_S512x256_S1280x256_S512x1280_1_1_0_0_n_n 256 rfl rfl).symm k) = ix2 r k := funext fun a => Fin.ext (by
    match a with
    | ⟨0, _⟩ => exact lhs_mm_0 _ _
    | ⟨1, _⟩ => exact (lhs_mm_1 _ _).trans hk)
  have er : dot_S512x256_S1280x256_S512x1280_1_1_0_0_n_n.rhsIdx (ix2 r q) ((ValueIdx.contrEquiv1 dot_S512x256_S1280x256_S512x1280_1_1_0_0_n_n 256 rfl rfl).symm k) = ix2 q k := funext fun a => Fin.ext (by
    match a with
    | ⟨0, _⟩ => exact rhs_mm_0 _ _
    | ⟨1, _⟩ => exact (rhs_mm_1 _ _).trans hk)
  rw [el, er]

/-! ## One trip at a row -/

/-- A select on an equality test of two words is the `if` on their equality. -/
theorem select_cmpi_eq {α : Type} (x y : BitVec 32) (a b : α) :
    Scalar.select (IntOp.cmpi .eq x y) a b = if x = y then a else b := by
  by_cases h : x = y
  · rw [if_pos h, StableHlo.Predicate.cmpi_eq_iff.mpr h, select_one]
  · rw [if_neg h, eq_zero_of_ne_one (fun h1 => h (StableHlo.Predicate.cmpi_eq_iff.mp h1)), select_zero]

/-- The mask of trip k at row r and lane q: whether the row's label is the class 1280 k + q. -/
theorem mask_apply (v8 : IVec S512x1 32) (k : Fin k0_t1_loop.trips) (r : Fin 512) (q : Fin 1280) :
    cmpi .eq (broadcastTo S512x1280 (shapeCast S512x1 v8 shapeCasts_S512x1_S512x1) broadcasts_S512x1_S512x1280)
        (broadcastTo S512x1280
          (addi (broadcast S1x1280 (Scalar.muli (Scf.iv 0#32 1#32 k.val) 1280#32)) (iota .tc S1x1280 32 [1] iota_S1x1280_d1_w32))
          broadcasts_S1x1280_S512x1280) (ix2 r q)
      = IntOp.cmpi .eq (v8 (ix2 r 0)) (BitVec.ofNat 32 (1280 * k.val + q.val)) := by
  show IntOp.cmpi .eq _ _ = _
  rw [shapeCast_self,
    broadcastTo_apply v8 broadcasts_S512x1_S512x1280 (ix2 r q) (ix2 r 0)
      (fun a => by match a with | ⟨0, _⟩ => rfl | ⟨1, _⟩ => rfl),
    broadcastTo_apply _ broadcasts_S1x1280_S512x1280 (ix2 r q) (ix2 (0 : Fin 1) q)
      (fun a => by match a with | ⟨0, _⟩ => rfl | ⟨1, _⟩ => rfl)]
  show IntOp.cmpi .eq _ (IntOp.addi _ (iota .tc S1x1280 32 [1] iota_S1x1280_d1_w32 (ix2 (0 : Fin 1) q))) = _
  rw [iota_single_apply]
  show IntOp.cmpi .eq _ (IntOp.addi (Scalar.muli (Scf.iv 0#32 1#32 k.val) 1280#32) (BitVec.ofNat 32 q.val)) = _
  rw [colWord]

/-- ONE TRIP. At row r, trip k adds to the carried value the inner product of the row with the chunk's row q wherever
    the row's label is the class 1280 k + q, and nothing at the other lanes. -/
theorem trip_apply (v3 : Vec Ideal S512x256 .f32) (v8 : Vec Ideal S512x1 .i32) (k : Fin k0_t1_loop.trips)
    (acc : FVec Ideal S512x1 .f32) (ch : Vec Ideal S1280x256 .bf16) (r : Fin 512) :
    k0_pay4 (F := Ideal) v3 v8 k acc ch (ix2 r 0)
      = acc (ix2 r 0) + ∑ q : Fin 1280,
          (if v8 (ix2 r 0) = BitVec.ofNat 32 (1280 * k.val + q.val) then ∑ d : Fin 256, v3 (ix2 r d) * ch (ix2 q d) else 0) := by
  unfold k0_pay4
  rw [addf_apply, rowSum_apply]
  refine congrArg (acc (ix2 r 0) + ·) (Finset.sum_congr rfl fun q _ => ?_)
  have hz : (FloatOps.ofBits (F := Ideal) FTy.f32 0x00000000#32 : EReal) = 0 := Ideal.ofBits_zero_f32
  rw [select_apply, mask_apply, select_cmpi_eq, shapeCast_self, mm_apply, broadcast_apply, hz]
  rfl

/-! ## The chunk at an index, and the eight trips -/

/-- Row q of chunk k is row 1280 k + q of the padded centers. -/
theorem chunk_apply (x3 : Vec Ideal S10240x256 .bf16) (k : Fin k0_t1_loop.trips) (q : Fin 1280) (d : Fin 256) :
    chunk (F := Ideal) x3 k (ix2 q d)
      = x3 (ix2 (⟨1280 * k.val + q.val, by
          have := lt_of_lt_of_eq k.isLt trips_eq; have := q.isLt; omega⟩ : Fin 10240) d) := by
  unfold chunk
  show x3 _ = x3 _
  refine congrArg x3 (funext fun a => Fin.ext ?_)
  match a with
  | ⟨0, _⟩ =>
    show (k0_off1 k) 0 + 1 * q.val = 1280 * k.val + q.val
    rw [k0_off1_eq]
    show 1280 * k.val + 1 * q.val = 1280 * k.val + q.val
    omega
  | ⟨1, _⟩ =>
    show (k0_off1 k) 1 + 1 * d.val = d.val
    rw [k0_off1_eq]
    show 0 + 1 * d.val = d.val
    omega

/-- THE CARRIED COLUMN. Before trip m, at a row whose label is the class n, the carried value is the sum over the
    trips k < m and the lanes q of the inner product of the row with center n, kept where 1280 k + q = n. -/
theorem labelDots_apply (v3 : Vec Ideal S512x256 .f32) (v8 : Vec Ideal S512x1 .i32) (x3 : Vec Ideal S10240x256 .bf16)
    (r : Fin 512) (n : Fin 10240) (hn : v8 (ix2 r 0) = BitVec.ofNat 32 n.val) :
    ∀ m : ℕ, m ≤ 8 → labelDots (F := Ideal) v3 v8 x3 m (ix2 r 0)
      = ∑ k ∈ Finset.range m, ∑ q : Fin 1280,
          (if n.val = 1280 * k + q.val then ∑ d : Fin 256, v3 (ix2 r d) * x3 (ix2 n d) else 0)
  | 0, _ => by
    rw [Finset.range_zero, Finset.sum_empty]
    show Ideal.ofBits .f32 0x00000000#32 = 0
    exact Ideal.ofBits_zero_f32
  | m + 1, hm => by
    have hlt : m < k0_t1_loop.trips := by rw [trips_eq]; omega
    have hnlt := n.isLt
    rw [labelDots, dif_pos hlt, trip_apply, labelDots_apply v3 v8 x3 r n hn m (by omega), Finset.sum_range_succ]
    refine congrArg (_ + ·) (Finset.sum_congr rfl fun q _ => ?_)
    have hq := q.isLt
    rw [hn]
    have hiff : BitVec.ofNat 32 n.val = BitVec.ofNat 32 (1280 * (⟨m, hlt⟩ : Fin k0_t1_loop.trips).val + q.val)
        ↔ n.val = 1280 * m + q.val :=
      ofNat32_inj (by omega) (by show 1280 * m + q.val < 4294967296; omega)
    by_cases h : n.val = 1280 * m + q.val
    · rw [if_pos (hiff.mpr h), if_pos h]
      refine Finset.sum_congr rfl fun d _ => ?_
      rw [chunk_apply]
      exact congrArg (fun t => v3 (ix2 r d) * x3 (ix2 t d)) (Fin.ext h.symm)
    · rw [if_neg (fun h' => h (hiff.mp h')), if_neg h]

/-- AFTER THE EIGHT TRIPS the carried value at a row whose label is the class n is the inner product of the row with
    center n: exactly one trip and one lane, k = n / 1280 and q = n mod 1280, keep a product. -/
theorem labelDots_final (v3 : S512x256.Idx → EReal) (v8 : S512x1.Idx → BitVec 32) (x3 : S10240x256.Idx → EReal)
    (r : Fin 512) (n : Fin 10240) (hn : v8 (ix2 r 0) = BitVec.ofNat 32 n.val) :
    labelDots (F := Ideal) v3 v8 x3 8 (ix2 r 0) = ∑ d : Fin 256, v3 (ix2 r d) * x3 (ix2 n d) := by
  have hnlt := n.isLt
  rw [labelDots_apply v3 v8 x3 r n hn 8 le_rfl, Finset.sum_eq_single (n.val / 1280)]
  · rw [Finset.sum_eq_single (⟨n.val % 1280, Nat.mod_lt _ (by norm_num)⟩ : Fin 1280)]
    · exact if_pos (by show n.val = 1280 * (n.val / 1280) + n.val % 1280; omega)
    · intro q _ hq
      refine if_neg fun h => hq (Fin.ext ?_)
      show q.val = n.val % 1280
      have := q.isLt
      omega
    · intro h; exact absurd (Finset.mem_univ _) h
  · intro k _ hk
    refine Finset.sum_eq_zero fun q _ => if_neg fun h => hk ?_
    have := q.isLt
    omega
  · intro h
    exact absurd (Finset.mem_range.mpr (by omega)) h

end Cert.KernelIdeal.Loop
end
-- ==== Proof.KBlocks.lean ====
/-
  Where each input block sits in its array.

  The kernel runs over 16 grid points `t` (a 2 × 8 grid, point `(c₀, c₁)` being `t = 8·c₀ + c₁`). At point `t` the
  features, the label column and the center-norm column are read in blocks of 512 rows: block `t` is rows
  `512·t … 512·t + 511`, all columns. The padded centers are read whole at every point. A block's element at
  coordinate `y` sits in its array, on every axis, at (block index) × (block extent) + `y`; with the block indices
  `(t, 0)`, `(t, 0)`, `(t, 0)` and `(0, 0)` that gives row `512·t + r` of the array for row `r` of the block, and the
  array itself for the whole-array block.
-/
import proofs.«412466_j9448928051410_3_alg».proof.Proof.Gen.KernelIdeal.Frame
import Idealize.ShloMosaic.Lib.ValueIdx

noncomputable section

namespace Cert.KernelIdeal.Blocks

open Cert.KernelIdeal Cert.KernelIdeal.Gen Idealize.ShloMosaic Idealize.ShloMosaic.TcCoe Idealize.ShloMosaic.ValueIdx

variable {F : FTy → Type} [FloatOps F] [Named F]
variable (m : (ℓ : Loc nD τ sig) → Buf (Elt F) ℓ)

/-- THE BLOCK INDICES, over the whole grid: at point `t` the three row-blocked inputs are at block `(t, 0)` (the index
    map computes `8·c₀ + c₁`, which is `t` itself) and the centers at block `(0, 0)`. Sixteen points, checked each. -/
theorem idx_facts : ∀ t : Fin cfg0.N,
    win0_0.index t (0 : Fin 2) = t.val ∧ win0_0.index t (1 : Fin 2) = 0 ∧
    win0_1.index t (0 : Fin 2) = t.val ∧ win0_1.index t (1 : Fin 2) = 0 ∧
    win0_2.index t (0 : Fin 2) = t.val ∧ win0_2.index t (1 : Fin 2) = 0 ∧
    win0_3.index t (0 : Fin 2) = 0 ∧ win0_3.index t (1 : Fin 2) = 0 :=
  (by decide +kernel : ∀ t : Fin grid0.N, _)

/-- Row `r` of block `t` is a row of the array: `512·t + r < 8192` for `t < 16`, `r < 512`. -/
theorem row_lt (t : Fin cfg0.N) (r : Fin 512) : 512 * t.val + r.val < 8192 := by
  have ht : t.val < 16 := lt_of_lt_of_eq t.isLt N_0
  have := r.isLt; omega

/-- THE FEATURES. Row `r`, column `d` of the block read at point `t` is row `512·t + r`, column `d` of the features. -/
theorem iblk0_apply (c : Dev nD) (t : Fin cfg0.N) (r : Fin 512) (d : Fin 256) :
    (iblk m c 0 t : S512x256.Idx → F .f32) (ix2 r d)
      = (V m c main_arg0 : S8192x256.Idx → F .f32) (ix2 ⟨512 * t.val + r.val, row_lt t r⟩ d) := by
  obtain ⟨h0, h1, -⟩ := idx_facts t
  unfold iblk
  rw [View.read_apply]
  show V m c main_arg0 _ = V m c main_arg0 _
  congr 1
  funext a
  apply Fin.ext
  match a with
  | ⟨0, _⟩ => show win0_0.index t 0 * 512 + 1 * r.val = 512 * t.val + r.val; rw [h0]; omega
  | ⟨1, _⟩ => show win0_0.index t 1 * 256 + 1 * d.val = d.val; rw [h1]; omega

/-- THE LABEL COLUMN. Row `r` of the block read at point `t` is row `512·t + r` of the label column. -/
theorem iblk1_apply (c : Dev nD) (t : Fin cfg0.N) (r : Fin 512) :
    (iblk m c 1 t : S512x1.Idx → BitVec 32) (ix2 r 0)
      = (V m c main_v12 : S8192x1.Idx → BitVec 32) (ix2 ⟨512 * t.val + r.val, row_lt t r⟩ 0) := by
  obtain ⟨-, -, h0, h1, -⟩ := idx_facts t
  unfold iblk
  rw [View.read_apply]
  show V m c main_v12 _ = V m c main_v12 _
  congr 1
  funext a
  apply Fin.ext
  match a with
  | ⟨0, _⟩ => show win0_1.index t 0 * 512 + 1 * r.val = 512 * t.val + r.val; rw [h0]; omega
  | ⟨1, _⟩ => show win0_1.index t 1 * 1 + 1 * 0 = 0; rw [h1]

/-- THE CENTER-NORM COLUMN. Row `r` of the block read at point `t` is row `512·t + r` of the column. -/
theorem iblk2_apply (c : Dev nD) (t : Fin cfg0.N) (r : Fin 512) :
    (iblk m c 2 t : S512x1.Idx → F .f32) (ix2 r 0)
      = (V m c main_v11 : S8192x1.Idx → F .f32) (ix2 ⟨512 * t.val + r.val, row_lt t r⟩ 0) := by
  obtain ⟨-, -, -, -, h0, h1, -⟩ := idx_facts t
  unfold iblk
  rw [View.read_apply]
  show V m c main_v11 _ = V m c main_v11 _
  congr 1
  funext a
  apply Fin.ext
  match a with
  | ⟨0, _⟩ => show win0_2.index t 0 * 512 + 1 * r.val = 512 * t.val + r.val; rw [h0]; omega
  | ⟨1, _⟩ => show win0_2.index t 1 * 1 + 1 * 0 = 0; rw [h1]

/-- THE PADDED CENTERS. The block read at any point is the whole array: block `(0, 0)` of extent the array's own. -/
theorem iblk3_eq (c : Dev nD) (t : Fin cfg0.N) :
    (iblk m c 3 t : S10240x256.Idx → F .bf16) = (V m c main_v1 : S10240x256.Idx → F .bf16) := by
  obtain ⟨-, -, -, -, -, -, h0, h1⟩ := idx_facts t
  funext y
  unfold iblk
  rw [View.read_apply]
  show V m c main_v1 _ = V m c main_v1 y
  congr 1
  funext a
  apply Fin.ext
  match a with
  | ⟨0, _⟩ => show win0_3.index t 0 * 10240 + 1 * (y 0).val = (y 0).val; rw [h0]; omega
  | ⟨1, _⟩ => show win0_3.index t 1 * 256 + 1 * (y 1).val = (y 1).val; rw [h1]; omega

end Cert.KernelIdeal.Blocks

end
-- ==== Proof.KHost.lean ====
/-
  What the region finds on entry in the three arrays the host computes before it.

  Before the region the host makes, from the class labels `L : 8192` and the class centers `C : 10000 × 256`:
  the labels as a column `[8192, 1]`; the column of squared norms `‖C (L b)‖²` — the row sums of `C · C`, gathered at
  the labels (after the wrap of a negative index, which leaves a class in `[0, 10000)` alone, and the gather's clamp
  into `[0, 9999]`, which does too) —; and the centers padded with 240 zero rows to `[10240, 256]`. Each array is first
  written as the host operations' composed term of the argument arrays, and that term is then read at one index by
  small lemmas stated over variables: a vector viewed as a column, the wrap's select on a word that is not negative,
  the gather of a rank-1 table at a column of start indices, a row sum at the ideal values, and the pad inside and
  outside its source.
-/
import proofs.«412466_j9448928051410_3_alg».proof.Proof.Gen.KernelIdeal.Frame
import proofs.«412466_j9448928051410_3_alg».proof.Proof.Spec
import Idealize.ShloMosaic.Lib.ValueIdx
import Idealize.ShloMosaic.Lib.Pipeline.Value
import Idealize.ShloMosaic.Lib.ValueLayout
import Idealize.ShloMosaic.Lib.KernelVsHost
import Idealize.ShloMosaic.PureOps.Ideal.Laws
import Idealize.ShloMosaic.Lib.StableHlo.Run

noncomputable section

namespace Cert.KernelIdeal.HostPrefix

open Cert.KernelIdeal Cert.KernelIdeal.Gen Idealize.ShloMosaic Idealize.ShloMosaic.TcCoe Idealize.ShloMosaic.ValueIdx
open scoped BigOperators

/-! ## The host operations before the region, each read at one index -/

section Pure
variable {α : Type}

/-- A vector of 8192 entries viewed as a column: entry `(b, 0)` of the column is entry `b` of the vector. -/
theorem reshape_col_apply (x : S8192.Idx → α) (h : S8192.ShapeCasts S8192x1) (b : Fin 8192) :
    shapeCast S8192x1 x h (ix2 b 0) = x (ix1 b) := by
  refine shapeCast_apply x h (ix2 b 0) (ix1 b) ?_
  rw [Shape.rowMajor_val_one, Shape.rowMajor_val_two]
  show b.val = b.val * 1 + 0
  omega

/-- The same column made by a broadcast along axis 0. -/
theorem bcast_col_apply (x : S8192.Idx → α) (b : Fin 8192) :
    broadcastInDim S8192x1 ![0] bcast_S8192_S8192x1_0 x (ix2 b 0) = x (ix1 b) := by
  refine broadcastInDim_apply _ bcast_S8192_S8192x1_0 x (ix2 b 0) (ix1 b) (fun a => ?_)
  match a with
  | ⟨0, _⟩ => show b.val = if (8192 : Nat) = 1 then 0 else b.val; rw [if_neg (by decide)]

/-- A word below `10000` read as a signed integer is that number. -/
theorem toInt_ofNat_small (n : Nat) (hn : n < 10000) : (BitVec.ofNat 32 n).toInt = (n : Int) := by
  rw [BitVec.toInt_eq_toNat_cond, BitVec.toNat_ofNat]
  have h1 : n % 2 ^ 32 = n := Nat.mod_eq_of_lt (by omega)
  rw [h1, if_pos (by omega)]

/-- The wrap of a negative index leaves a class in range alone: it is not negative, so the select takes its second
    branch. -/
theorem wrap_apply (lbl : IVec S8192 32) (b : Fin 8192) (n : Nat) (hn : n < 10000) (hl : lbl (ix1 b) = BitVec.ofNat 32 n) :
    select (cmpi .slt lbl (broadcastInDim S8192 ![] bcast_S_S8192 (constantI S_ 32 0#32)))
        (addi lbl (broadcastInDim S8192 ![] bcast_S_S8192 (constantI S_ 32 10000#32))) lbl (ix1 b)
      = BitVec.ofNat 32 n := by
  rw [select_apply]
  have hc : cmpi .slt lbl (broadcastInDim S8192 ![] bcast_S_S8192 (constantI S_ 32 0#32)) (ix1 b) = 0#1 := by
    show IntOp.cmpi .slt (lbl (ix1 b)) 0#32 = 0#1
    rw [hl]
    show BitVec.ofBool ((BitVec.ofNat 32 n).slt 0#32) = 0#1
    have hs : (BitVec.ofNat 32 n).slt 0#32 = false := by
      rw [BitVec.slt, toInt_ofNat_small n hn]
      simp
    rw [hs]; rfl
  rw [hc, select_zero, hl]

/-- THE GATHER READ AT `b`: the table at the start index `idx[b, 0]`, read signed and clamped into `[0, 9999]`. -/
theorem gather_col_apply (x : S10000.Idx → α) (idx : IVec S8192x1 32) (b : Fin 8192) :
    Host.gather gather_S10000_S8192x1_S8192_n_0_n_n_0_1_1 x idx (ix1 b)
      = x (ix1 ⟨min (idx (ix2 b 0)).toInt.toNat 9999, by omega⟩) := by
  unfold Host.gather
  congr 1
  funext a
  obtain rfl : a = 0 := Subsingleton.elim _ _
  refine Fin.ext ?_
  show gather_S10000_S8192x1_S8192_n_0_n_n_0_1_1.start (ix1 b) idx 0
      + gather_S10000_S8192x1_S8192_n_0_n_n_0_1_1.batchCoord (ix1 b) 0
      + gather_S10000_S8192x1_S8192_n_0_n_n_0_1_1.offCoord (ix1 b) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S10000_S8192x1_S8192_n_0_n_n_0_1_1.startIndexMap from List.mem_singleton.mpr rfl)]
  have hsi : gather_S10000_S8192x1_S8192_n_0_n_n_0_1_1.siIdx (ix1 b)
      ⟨List.idxOf (0 : Fin 1) gather_S10000_S8192x1_S8192_n_0_n_n_0_1_1.startIndexMap,
        List.idxOf_lt_length_iff.2 (List.mem_singleton.mpr rfl)⟩ = ix2 b 0 := by
    funext c; refine Fin.ext ?_
    match c with
    | ⟨0, _⟩ => rfl
    | ⟨1, _⟩ => rfl
  rw [hsi]
  rfl

/-- The clamp leaves a class in range alone. -/
theorem clamp_small (n : Nat) (hn : n < 10000) : min (BitVec.ofNat 32 n).toInt.toNat 9999 = n := by
  rw [toInt_ofNat_small n hn, Int.toNat_natCast]
  omega

end Pure

/-- The row sums of the squared centers, at the ideal values: row `i`'s squared norm. -/
theorem rowsum_apply (C : FVec Ideal S10000x256 .f32) (i : Fin 10000) :
    Host.reduceAdd (mulf C C) (constant (F := Ideal) S_ .f32 0x00000000#32) reducesTo_S10000x256_S10000_d1 h_S_ (ix1 i)
      = ∑ k : Fin 256, C (ix2 i k) * C (ix2 i k) := by
  simp only [Host.reduceAdd, Ideal.hostReduceAdd_def]
  rw [Ideal.hostReduceAdd_single reducesTo_S10000x256_S10000_d1 (by decide)]
  rw [constant_apply, Ideal.ofBits_zero_f32, zero_add]
  refine Finset.sum_congr rfl fun k _ => ?_
  rw [mulf_apply]
  have hi : ((by decide : S10000x256.Reduces [1] S10000).lift (ix1 i) k) = ix2 i k :=
    funext fun a => Fin.ext (by match a with | ⟨0, _⟩ => rfl | ⟨1, _⟩ => rfl)
  rw [hi]
  rfl

/-- The padded table inside the source rows: the source. -/
theorem pad_lt_apply (x : FVec Ideal S10000x256 .bf16) (v : FVec Ideal S_ .bf16) (r : Fin 10240) (k : Fin 256) (h : r.val < 10000) :
    pad S10240x256 ![0, 0] ![240, 0] ![0, 0] x v pads_S10000x256_S10240x256_02400_000 h_S_ (ix2 r k) = x (ix2 ⟨r.val, h⟩ k) := by
  refine pad_apply_of_inside _ _ _ x v _ _ (ix2 r k) (ix2 ⟨r.val, h⟩ k) (fun a => ?_)
  match a with
  | ⟨0, _⟩ => show r.val = 0 + r.val * (0 + 1); omega
  | ⟨1, _⟩ => show k.val = 0 + k.val * (0 + 1); omega

/-- The padded table below the source rows: the padding value. -/
theorem pad_ge_apply (x : FVec Ideal S10000x256 .bf16) (v : FVec Ideal S_ .bf16) (r : Fin 10240) (k : Fin 256) (h : 10000 ≤ r.val) :
    pad S10240x256 ![0, 0] ![240, 0] ![0, 0] x v pads_S10000x256_S10240x256_02400_000 h_S_ (ix2 r k) = v (Shape.Idx.first h_S_) := by
  refine pad_apply_of_not_inside _ _ _ x v _ _ (ix2 r k) ⟨0, by decide⟩ (fun hin => ?_)
  have h3 : (r.val - 0) / (0 + 1) < 10000 := hin.2.2
  omega

section Pure2
variable {α : Type}

/-- The gather at a start index that is a class `i` in range: the table at `i`. -/
theorem gather_col_of_small (x : S10000.Idx → α) (idx : IVec S8192x1 32) (b : Fin 8192) (i : Fin 10000)
    (hi : idx (ix2 b 0) = BitVec.ofNat 32 i.val) :
    Host.gather gather_S10000_S8192x1_S8192_n_0_n_n_0_1_1 x idx (ix1 b) = x (ix1 i) := by
  rw [gather_col_apply]
  refine congrArg (fun j => x (ix1 j)) (Fin.ext ?_)
  show min (idx (ix2 b 0)).toInt.toNat 9999 = i.val
  rw [hi]
  exact clamp_small _ i.isLt

end Pure2

/-- THE COLUMN OF SQUARED NORMS READ AT `(b, 0)`. For a label word that is the class `i`, the composed term — row sums
    of `C · C`, gathered at the wrapped labels, viewed as a column — is `∑ k, C i k · C i k`. -/
theorem centerNorm_apply (C : FVec Ideal S10000x256 .f32) (lbl : IVec S8192 32) (b : Fin 8192) (i : Fin 10000)
    (hl : lbl (ix1 b) = BitVec.ofNat 32 i.val) :
    shapeCast S8192x1
        (Host.gather gather_S10000_S8192x1_S8192_n_0_n_n_0_1_1
          (Host.reduceAdd (mulf C C) (constant (F := Ideal) S_ .f32 0x00000000#32) reducesTo_S10000x256_S10000_d1 h_S_)
          (broadcastInDim S8192x1 ![0] bcast_S8192_S8192x1_0
            (select (cmpi .slt lbl (broadcastInDim S8192 ![] bcast_S_S8192 (constantI S_ 32 0#32)))
              (addi lbl (broadcastInDim S8192 ![] bcast_S_S8192 (constantI S_ 32 10000#32))) lbl)))
        shapeCasts_S8192_S8192x1 (ix2 b 0)
      = ∑ k : Fin 256, C (ix2 i k) * C (ix2 i k) := by
  rw [reshape_col_apply]
  rw [gather_col_of_small _ _ b i (by rw [bcast_col_apply]; exact wrap_apply lbl b i.val i.isLt hl)]
  exact rowsum_apply C i

/-! ## The three arrays as the host operations' terms of the argument arrays -/

variable (m : (ℓ : Loc nD τ sig) → Buf (Elt Ideal) ℓ)

/-- The label column is the labels viewed as a column. -/
theorem V_main_v12_eq (c : Dev nD) : (V m c main_v12 : S8192x1.Idx → BitVec 32)
    = shapeCast S8192x1 (m ((c : Thread nD τ).loc main_arg1) : S8192.Idx → BitVec 32) shapeCasts_S8192_S8192x1 := by
  dsimp only [Gen.V, Gen.V0]
  simp only [Gen.hostOps0, Gen.hostOps0_1, Gen.hostOps0_2, List.flatten_cons, List.flatten_nil, List.append_nil,
    List.cons_append, List.nil_append]
  after_results
  rfl

set_option maxHeartbeats 4000000 in
/-- The norm column is the row sums of the squared centers, gathered at the wrapped labels, viewed as a column. -/
theorem V_main_v11_eq (c : Dev nD) : (V m c main_v11 : S8192x1.Idx → EReal)
    = shapeCast S8192x1
        (Host.gather gather_S10000_S8192x1_S8192_n_0_n_n_0_1_1
          (Host.reduceAdd
            (mulf (m ((c : Thread nD τ).loc main_arg2) : FVec Ideal S10000x256 .f32) (m ((c : Thread nD τ).loc main_arg2) : FVec Ideal S10000x256 .f32))
            (constant (F := Ideal) S_ .f32 0x00000000#32) reducesTo_S10000x256_S10000_d1 h_S_)
          (broadcastInDim S8192x1 ![0] bcast_S8192_S8192x1_0
            (select
              (cmpi .slt (m ((c : Thread nD τ).loc main_arg1) : IVec S8192 32) (broadcastInDim S8192 ![] bcast_S_S8192 (constantI S_ 32 0#32)))
              (addi (m ((c : Thread nD τ).loc main_arg1) : IVec S8192 32) (broadcastInDim S8192 ![] bcast_S_S8192 (constantI S_ 32 10000#32)))
              (m ((c : Thread nD τ).loc main_arg1) : IVec S8192 32))))
        shapeCasts_S8192_S8192x1 := by
  dsimp only [Gen.V, Gen.V0]
  simp only [Gen.hostOps0, Gen.hostOps0_1, Gen.hostOps0_2, List.flatten_cons, List.flatten_nil, List.append_nil,
    List.cons_append, List.nil_append]
  after_results
  rfl

/-- The padded table is the centers, their format changed, padded below with the converted integer zero. -/
theorem V_main_v1_eq (c : Dev nD) : (V m c main_v1 : S10240x256.Idx → EReal)
    = pad S10240x256 ![0, 0] ![240, 0] ![0, 0]
        (truncf (F := Ideal) .bf16 (m ((c : Thread nD τ).loc main_arg2) : FVec Ideal S10000x256 .f32) bitsLt_bf16_f32)
        (sitofp (F := Ideal) .bf16 (constantI S_ 32 0#32)) pads_S10000x256_S10240x256_02400_000 h_S_ := by
  dsimp only [Gen.V, Gen.V0]
  simp only [Gen.hostOps0, Gen.hostOps0_1, Gen.hostOps0_2, List.flatten_cons, List.flatten_nil, List.append_nil,
    List.cons_append, List.nil_append]
  after_results
  rfl

/-! ## The three arrays read at an index -/

/-- WINDOW 1. The label column at `(b, 0)` is label `b`. -/
theorem V_labels (c : Dev nD) (b : Fin 8192) :
    (V m c main_v12 : S8192x1.Idx → BitVec 32) (ix2 b 0)
      = (m ((c : Thread nD τ).loc main_arg1) : S8192.Idx → BitVec 32) (ix1 b) :=
  (congrFun (V_main_v12_eq m c) (ix2 b 0)).trans (reshape_col_apply _ _ b)

/-- WINDOW 2. Where every label word is a class `l b` in range, the norm column at `(b, 0)` is the squared norm of the
    center of row `b`'s class. -/
theorem V_centerNorm (c : Dev nD) (l : Fin 8192 → Fin 10000)
    (hl : ∀ b : Fin 8192, (m ((c : Thread nD τ).loc main_arg1) : S8192.Idx → BitVec 32) (ix1 b) = BitVec.ofNat 32 (l b).val)
    (b : Fin 8192) :
    (V m c main_v11 : S8192x1.Idx → EReal) (ix2 b 0)
      = CenterLoss.sqnorm (fun c' k => (m ((c : Thread nD τ).loc main_arg2) : S10000x256.Idx → EReal) (ix2 c' k)) (l b) := by
  refine (congrFun (V_main_v11_eq m c) (ix2 b 0)).trans ?_
  exact centerNorm_apply _ _ b (l b) (hl b)

/-- WINDOW 3, a source row. The padded table at row `r < 10000` is the centers' row `r`. -/
theorem V_padded_lt (c : Dev nD) (r : Fin 10240) (k : Fin 256) (h : r.val < 10000) :
    (V m c main_v1 : S10240x256.Idx → EReal) (ix2 r k)
      = (m ((c : Thread nD τ).loc main_arg2) : S10000x256.Idx → EReal) (ix2 ⟨r.val, h⟩ k) := by
  refine (congrFun (V_main_v1_eq m c) (ix2 r k)).trans ?_
  rw [pad_lt_apply _ _ r k h]
  rfl

/-- WINDOW 3, a padding row. The padded table at row `r ≥ 10000` is zero: the integer zero converted. -/
theorem V_padded_ge (c : Dev nD) (r : Fin 10240) (k : Fin 256) (h : 10000 ≤ r.val) :
    (V m c main_v1 : S10240x256.Idx → EReal) (ix2 r k) = (0 : EReal) := by
  refine (congrFun (V_main_v1_eq m c) (ix2 r k)).trans ?_
  rw [pad_ge_apply _ _ r k h]
  exact sitofp_zero (φ := .bf16)

end Cert.KernelIdeal.HostPrefix

end
-- ==== Proof.KValue.lean ====
/-
  The kernel's accumulators, read as the loss.

  A tile's four blocks are rows `512 n … 512 n + 511` of the features, of the label column and of the center-norm
  column, and the whole padded centers. Read through them, a tile adds to its core's accumulator the clipped label
  distances of its 512 rows and `512 · 9999` floors; a core's accumulator after its eight tiles is the sum of its
  tiles' additions, and the two cores' accumulators add up to the whole loss.
-/
import proofs.«412466_j9448928051410_3_alg».proof.Proof.KArray
import proofs.«412466_j9448928051410_3_alg».proof.Proof.KLoop
import proofs.«412466_j9448928051410_3_alg».proof.Proof.KBlocks
import proofs.«412466_j9448928051410_3_alg».proof.Proof.KHost
import proofs.«412466_j9448928051410_3_alg».proof.Proof.Spec

noncomputable section
open Idealize.ShloMosaic Idealize.ShloMosaic.TcCoe Idealize.SL.Sem
open Idealize.ShloMosaic.Pipeline (Dat)
open scoped BigOperators

namespace Cert.KernelIdeal.LossValue
open Cert.KernelIdeal Cert.KernelIdeal.Gen Cert.KernelIdeal.Loop Cert.KernelIdeal.Pieces Cert.KernelIdeal.Chain Cert.KernelIdeal.Array
  Idealize.ShloMosaic.ValueIdx CenterLoss

/-- ONE TILE, over any blocks. If the feature block's rows are `X`, the norm column is `nrm`, row `r`'s label word is
    that of the padded-centers row `lab r`, and that row is `cen r`, the accumulator after the tile is its contents before, plus the clipped
    `(‖X r‖² + nrm r) − 2 ⟨X r, cen r⟩` over the rows, plus `512 · 9999` floors. -/
theorem accAfter_apply (x0 : S512x256.Idx → EReal) (x1 : S512x1.Idx → BitVec 32) (x2 : S512x1.Idx → EReal)
    (x3 : S10240x256.Idx → EReal) (prev : S1x1.Idx → EReal)
    (X : Fin 512 → Fin 256 → EReal) (nrm : Fin 512 → EReal) (lab : Fin 512 → Fin 10240) (cen : Fin 512 → Fin 256 → EReal)
    (hx : ∀ r d, x0 (ix2 r d) = X r d) (hn : ∀ r, x2 (ix2 r 0) = nrm r)
    (hlab : ∀ r, x1 (ix2 r 0) = BitVec.ofNat 32 (lab r).val) (hc : ∀ r d, x3 (ix2 (lab r) d) = cen r d) :
    (accAfter (F := Ideal) x0 x1 x2 x3 prev : S1x1.Idx → EReal) (ix2 0 0)
      = prev (ix2 0 0) + ((∑ r : Fin 512, clip (((∑ d : Fin 256, X r d * X r d) + nrm r)
          - twoE * ∑ d : Fin 256, X r d * cen r d)) + (5119488 : ℕ) • floorE) := by
  unfold accAfter
  rw [show k0_t1_loop.trips = 8 from trips_eq, Cert.KernelIdeal.Pay.pay5_apply]
  congr 2
  refine Finset.sum_congr rfl fun r _ => ?_
  rw [labelDots_final x0 x1 x3 r (lab r) (hlab r), hn r]
  simp only [hx, hc]

variable (m : (ℓ : Loc nD τ sig) → Buf (Elt Ideal) ℓ)

/-- The features and the centers as the launch finds them. -/
abbrev feat (c : Dev nD) : Fin 8192 → Fin 256 → EReal := fun b k => (m ((c : Thread nD τ).loc main_arg0) : S8192x256.Idx → EReal) (ix2 b k)
abbrev cent (c : Dev nD) : Fin 10000 → Fin 256 → EReal := fun c' k => (m ((c : Thread nD τ).loc main_arg2) : S10000x256.Idx → EReal) (ix2 c' k)

/-- What tile `n` adds to its core's accumulator: its rows' clipped label distances and `512 · 9999` floors. -/
def tileTerm (c : Dev nD) (l : Fin 8192 → Fin 10000) (n : ℕ) : EReal :=
  if h : n < 16 then (∑ r : Fin 512, rowLoss (feat m c) (cent m c) l (tileRow ⟨n, h⟩ r)) + (5119488 : ℕ) • floorE else 0

/-- ONE TILE of the grid. The accumulator after tile `n` is its contents before plus the tile's term. -/
theorem step_apply (c : Dev nD) (l : Fin 8192 → Fin 10000) (hl : ∀ b : Fin 8192, (m ((c : Thread nD τ).loc main_arg1) : S8192.Idx → BitVec 32) (ix1 b) = BitVec.ofNat 32 (l b).val)
    (n : ℕ) (h : n < cfg0.N) (prev : S1x1.Idx → EReal) (i : S1x1.Idx) :
    (step m c n h prev : S1x1.Idx → EReal) i = prev i + tileTerm m c l n := by
  have hN : n < 16 := lt_of_lt_of_eq h N_0
  obtain ⟨p, q, rfl⟩ : ∃ (p : Fin 1) (q : Fin 1), i = ix2 p q := ⟨i 0, i 1, eq_ix2 i⟩
  obtain rfl : p = 0 := Subsingleton.elim _ _
  obtain rfl : q = 0 := Subsingleton.elim _ _
  have hlt : ∀ r : Fin 512, (l (tileRow ⟨n, hN⟩ r)).val < 10240 := fun r => by have := (l (tileRow ⟨n, hN⟩ r)).isLt; omega
  -- the tile's blocks, row by row, in the whole arrays
  have hx : ∀ (r : Fin 512) (d : Fin 256), (iblk m c 0 ⟨n, h⟩ : S512x256.Idx → EReal) (ix2 r d) = feat m c (tileRow ⟨n, hN⟩ r) d :=
    fun r d => (Cert.KernelIdeal.Blocks.iblk0_apply m c ⟨n, h⟩ r d).trans (congrFun (V_main_arg0 m c) _)
  have hn : ∀ r : Fin 512, (iblk m c 2 ⟨n, h⟩ : S512x1.Idx → EReal) (ix2 r 0) = sqnorm (cent m c) (l (tileRow ⟨n, hN⟩ r)) :=
    fun r => (Cert.KernelIdeal.Blocks.iblk2_apply m c ⟨n, h⟩ r).trans
      (Cert.KernelIdeal.HostPrefix.V_centerNorm m c l hl (tileRow ⟨n, hN⟩ r))
  have hlab : ∀ r : Fin 512, (iblk m c 1 ⟨n, h⟩ : S512x1.Idx → BitVec 32) (ix2 r 0)
      = BitVec.ofNat 32 ((⟨(l (tileRow ⟨n, hN⟩ r)).val, hlt r⟩ : Fin 10240)).val :=
    fun r => (Cert.KernelIdeal.Blocks.iblk1_apply m c ⟨n, h⟩ r).trans
      ((Cert.KernelIdeal.HostPrefix.V_labels m c (tileRow ⟨n, hN⟩ r)).trans (hl (tileRow ⟨n, hN⟩ r)))
  have hc : ∀ (r : Fin 512) (d : Fin 256), (iblk m c 3 ⟨n, h⟩ : S10240x256.Idx → EReal) (ix2 (⟨(l (tileRow ⟨n, hN⟩ r)).val, hlt r⟩ : Fin 10240) d)
      = cent m c (l (tileRow ⟨n, hN⟩ r)) d :=
    fun r d => (congrFun (Cert.KernelIdeal.Blocks.iblk3_eq m c ⟨n, h⟩) _).trans
      (Cert.KernelIdeal.HostPrefix.V_padded_lt m c ⟨(l (tileRow ⟨n, hN⟩ r)).val, hlt r⟩ d (l (tileRow ⟨n, hN⟩ r)).isLt)
  unfold step
  refine (accAfter_apply (iblk m c 0 ⟨n, h⟩) (iblk m c 1 ⟨n, h⟩) (iblk m c 2 ⟨n, h⟩) (iblk m c 3 ⟨n, h⟩) prev
    (fun r d => feat m c (tileRow ⟨n, hN⟩ r) d) (fun r => sqnorm (cent m c) (l (tileRow ⟨n, hN⟩ r)))
    (fun r => ⟨(l (tileRow ⟨n, hN⟩ r)).val, hlt r⟩) (fun r d => cent m c (l (tileRow ⟨n, hN⟩ r)) d) hx hn hlab hc).trans ?_
  unfold tileTerm
  rw [dif_pos hN]
  rfl

/-- A CORE. After the last tile `8 q + 7` of core `q` the accumulator is the sum of the core's eight tile terms. -/
theorem acc_eq (c : Dev nD) (l : Fin 8192 → Fin 10000) (hl : ∀ b : Fin 8192, (m ((c : Thread nD τ).loc main_arg1) : S8192.Idx → BitVec 32) (ix1 b) = BitVec.ofNat 32 (l b).val)
    (q : ℕ) (hq : q < 2) (t : Fin cfg0.N) (ht : t.val = 8 * q + 7) :
    acc m c t = ∑ s ∈ Finset.range 8, tileTerm m c l (8 * q + s) := by
  have hN : cfg0.N = 16 := N_0
  have hd : t.val / 8 = q := by omega
  have hm : t.val % 8 = 7 := by omega
  have h' : 8 * (t.val / 8) + t.val % 8 < cfg0.N := by rw [Nat.div_add_mod]; exact t.isLt
  unfold acc
  rw [scr_fold m c t.val t.isLt h']
  have key := Pipeline.accAt_add_apply (N := cfg0.N) (ι := S1x1.Idx) (β := EReal)
    (fun n h => (step m c n h (k0_pay2 (F := Ideal)) : S1x1.Idx → EReal)) (fun n h prev => (step m c n h prev : S1x1.Idx → EReal))
    (fun _ => (0 : EReal)) (fun n _ => tileTerm m c l n) (8 * (t.val / 8)) 7
    (fun h i => by
      rw [step_apply m c l hl _ h _ i]
      congr 1
      obtain ⟨p, q, rfl⟩ : ∃ (p : Fin 1) (q : Fin 1), i = ix2 p q := ⟨i 0, i 1, eq_ix2 i⟩
      obtain rfl : p = 0 := Subsingleton.elim _ _
      obtain rfl : q = 0 := Subsingleton.elim _ _
      exact Cert.KernelIdeal.Pay.pay2_apply)
    (fun n h prev i _ _ => step_apply m c l hl n h prev i)
    (t.val % 8) (by omega) h' (ix2 0 0)
  rw [key, zero_add, hm, hd]

/-- THE TWO CORES TOGETHER are the whole loss. -/
theorem accs_total (c : Dev nD) (l : Fin 8192 → Fin 10000) (hl : ∀ b : Fin 8192, (m ((c : Thread nD τ).loc main_arg1) : S8192.Idx → BitVec 32) (ix1 b) = BitVec.ofNat 32 (l b).val) :
    acc m c t0_7 + acc m c t0_15 = total (feat m c) (cent m c) l := by
  rw [acc_eq m c l hl 0 (by norm_num) t0_7 rfl, acc_eq m c l hl 1 (by norm_num) t0_15 rfl]
  unfold total
  rw [← tiles_total (fun b => rowLoss (feat m c) (cent m c) l b)]
  have h16 : ∀ T : Fin 16, (∑ r : Fin 512, rowLoss (feat m c) (cent m c) l (tileRow T r)) + (5119488 : ℕ) • floorE
      = tileTerm m c l T.val := fun T => by
    unfold tileTerm; rw [dif_pos T.isLt]
  rw [Finset.sum_congr rfl fun T _ => h16 T, Fin.sum_univ_eq_sum_range (fun n => tileTerm m c l n) 16,
    show (16 : ℕ) = 8 + 8 from rfl, Finset.sum_range_add]
  simp only [Nat.mul_zero, Nat.zero_add, Nat.mul_one]

end Cert.KernelIdeal.LossValue

end
-- ==== Proof.KTail.lean ====
/-
  The kernel program's last two host operations, read at the extended reals.

  After its region the kernel program sums its `[1, 256]` output array over both axes, starting from zero, and divides
  that sum by `8192`. So the program's result is that quotient of the total of whatever array the region leaves
  (`tail_value`); and an array that is zero but at columns `0` and `128` totals to the sum of those two cells
  (`lanes_sum`).
-/
import proofs.«412466_j9448928051410_3_alg».proof.Proof.Gen.KernelIdeal.Frame
import Idealize.ShloMosaic.Lib.ValueIdx
import Idealize.ShloMosaic.PureOps.Ideal.Laws

set_option maxRecDepth 16384

noncomputable section

namespace Cert.KernelIdeal.Tail

open Cert.KernelIdeal Cert.KernelIdeal.Gen Idealize.ShloMosaic Idealize.ShloMosaic.TcCoe Idealize.ShloMosaic.ValueIdx
open Idealize.SL.Sem
open scoped BigOperators

variable (m : (ℓ : Loc nD τ sig) → Buf (Elt Ideal) ℓ)

/-- THE RESULT BUFFER after the lines that follow the region: the total of the region's output array, from zero,
    divided by the constant `8192`. The array is whatever the region leaves in its fifth window, named `G` here. -/
theorem tail_value (c : Dev nD) (G : S1x256.Idx → EReal) (hG : ((dats m 0 c).arrAt 4 cfg0.N : S1x256.Idx → EReal) = G) :
    (Pipeline.afterTail₀ cfgs (dats m) 0 (V0 m) [hostOps1] c main_v15 : S_.Idx → EReal)
      = Host.divf (F := Ideal) (Host.reduceAdd (F := Ideal) G (constant (F := Ideal) S_ .f32 0x00000000#32) reducesTo_S1x256_S_d0_1 h_S_) (constant (F := Ideal) S_ .f32 0x46000000#32) := by
  unfold Pipeline.afterTail₀
  show StableHlo.after hostOps1 _ (Proc.devRef .tc main_v15) = _
  after_results
  -- the array the sum reads is the region's, not the launch contents: it is one of the pipeline's arrays
  have h4 : (Pipeline.withArrays (cfgs 0).spec c (V0 m c) (fun w => (dats m 0 c).arrAt w (cfgs 0).N)
      (Proc.devRef .tc main_v13) : S1x256.Idx → EReal) = G :=
    (Pipeline.withArrays_arr spec0 launch0.win.arr_inj c (V0 m c) (fun w => (dats m 0 c).arrAt w (cfgs 0).N) 4).trans hG
  exact congrArg (fun g : S1x256.Idx → EReal => Host.divf (F := Ideal)
    (Host.reduceAdd (F := Ideal) g (constant (F := Ideal) S_ .f32 0x00000000#32) reducesTo_S1x256_S_d0_1 h_S_)
    (constant (F := Ideal) S_ .f32 0x46000000#32)) h4

/-- THE TOTAL OF TWO LANES. An array of one row that holds `a0` at column `0`, `a1` at column `128` and zero
    elsewhere sums, from zero, to `a0 + a1`: the one row's sum splits into the two one-point sums. -/
theorem lanes_sum (G : S1x256.Idx → EReal) (a0 a1 : EReal)
    (hG : ∀ col : Fin 256, G (ix2 0 col) = if col.val = 0 then a0 else if col.val = 128 then a1 else 0) :
    Host.reduceAdd (F := Ideal) G (constant (F := Ideal) S_ .f32 0x00000000#32) reducesTo_S1x256_S_d0_1 h_S_ = fun _ => a0 + a1 := by
  funext i
  simp only [Host.reduceAdd, Ideal.hostReduceAdd_def]
  rw [Ideal.hostReduceAdd_total reducesTo_S1x256_S_d0_1 (fun b => b.elim0) G _ i]
  show Ideal.ofBits .f32 0x00000000#32 + _ = _
  rw [Ideal.ofBits_zero_f32, zero_add, ValueIdx.sum_idx2, Fin.sum_univ_one]
  have hsplit : ∀ col : Fin 256, G (ix2 0 col)
      = (if col = (⟨0, by decide⟩ : Fin 256) then a0 else 0) + (if col = (⟨128, by decide⟩ : Fin 256) then a1 else 0) := by
    intro col
    rw [hG col]
    by_cases h0 : col.val = 0
    · have hc : col = (⟨0, by decide⟩ : Fin 256) := Fin.ext h0
      have hn : ¬ col = (⟨128, by decide⟩ : Fin 256) := fun e => by
        have h128 : col.val = 128 := congrArg Fin.val e
        omega
      rw [if_pos h0, if_pos hc, if_neg hn, add_zero]
    · have hc : ¬ col = (⟨0, by decide⟩ : Fin 256) := fun e => h0 (congrArg Fin.val e)
      rw [if_neg h0, if_neg hc, zero_add]
      by_cases h1 : col.val = 128
      · rw [if_pos h1, if_pos (Fin.ext h1)]
      · rw [if_neg h1, if_neg (fun e => h1 (congrArg Fin.val e))]
  rw [Finset.sum_congr rfl fun col _ => hsplit col, Finset.sum_add_distrib, Finset.sum_ite_eq', Finset.sum_ite_eq',
    if_pos (Finset.mem_univ _), if_pos (Finset.mem_univ _)]

end Cert.KernelIdeal.Tail

end
-- ==== Proof.KRun.lean ====
/-
  The kernel's run, read: its result is the whole loss divided by the row count.

  After the run the output array holds the two cores' accumulators in lanes 0 and 128 and zero elsewhere; the host
  sums its lanes, which is the sum of the two accumulators, that is the whole loss, and divides by 8192.
-/
import proofs.«412466_j9448928051410_3_alg».proof.Proof.KValue
import proofs.«412466_j9448928051410_3_alg».proof.Proof.KTail

noncomputable section
open Idealize.ShloMosaic Idealize.ShloMosaic.TcCoe Idealize.SL.Sem
open Idealize.ShloMosaic.Pipeline (Dat)

namespace Cert.KernelIdeal.LossValue
open Cert.KernelIdeal Cert.KernelIdeal.Gen Cert.KernelIdeal.Array Idealize.ShloMosaic.ValueIdx CenterLoss

variable (m : (ℓ : Loc nD τ sig) → Buf (Elt Ideal) ℓ) (ρ : Dev nD → PrngReg)

/-- The result buffer after the host's two closing operations. -/
theorem result_eq (c : Dev nD) (l : Fin 8192 → Fin 10000)
    (hl : ∀ b : Fin 8192, (m ((c : Thread nD τ).loc main_arg1) : S8192.Idx → BitVec 32) (ix1 b) = BitVec.ofNat 32 (l b).val) :
    (Pipeline.afterTail₀ cfgs (dats m) 0 (V0 m) [hostOps1] c main_v15 : S_.Idx → EReal)
      = Host.divf (F := Ideal) (fun _ => total (feat m c) (cent m c) l) (constant (F := Ideal) S_ .f32 0x46000000#32) := by
  rw [Cert.KernelIdeal.Tail.tail_value m c (lanes m c) (final4 m c),
    Cert.KernelIdeal.Tail.lanes_sum (lanes m c) (acc m c t0_7) (acc m c t0_15) (fun col => rfl),
    accs_total m c l hl]

/-- THE RUN, READ: every weakly fair execution ends with the result at the loss over the row count and the three
    arguments unchanged. -/
theorem run (l : Dev nD → Fin 8192 → Fin 10000)
    (hl : ∀ (c : Dev nD) (b : Fin 8192), (m ((c : Thread nD τ).loc main_arg1) : S8192.Idx → BitVec 32) (ix1 b) = BitVec.ofNat 32 (l c b).val) :
    θ_run defs (onTc (τ := τ) (main (F := Ideal))) ⟨m, fun _ => 0, ρ⟩ (fun r => ∀ c : Dev nD,
      r.2.mem ((c.tc : Thread nD τ).loc main_v15)
          = Host.divf (F := Ideal) (fun _ => total (feat m c) (cent m c) (l c)) (constant (F := Ideal) S_ .f32 0x46000000#32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v15 (Pipeline.mem_restRefs_of main_v15 (by decide) (by decide))).trans (result_eq m c (l c) (hl c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.LossValue

end
-- ==== Proof.lean ====
/-
  The certificate of the center-loss kernel against its reference, over the extended reals.

  Both programs compute ( Σ over the 8192 × 10000 cells of clip( dist(b, c) · [label b = c], floor, cap ) ) / 8192 with
  dist(b, c) = ‖x_b‖² + ‖center_c‖² − 2 ⟨x_b, center_c⟩. The reference forms every cell. The kernel forms, per row, only
  the cell at the row's own label (the inner product picked out of a chunked matrix product by the label mask, the
  center's norm gathered on the host), clips it, and adds for the 9999 other cells of the row the floor they clip to:
  per tile of 512 rows the constant 512 · 9999 · floor, named that multiple of the floor. Two cores each accumulate
  eight tiles; the host adds the two accumulators and divides by 8192. With every label a class index in [0, 10000)
  the two results are one extended real (CenterLoss.row_cells, CenterLoss.tiles_total); finiteness of the float
  inputs is not used.
-/
import proofs.«412466_j9448928051410_3_alg».proof.Defs
import proofs.«412466_j9448928051410_3_alg».proof.Proof.Gen.Kernel
import proofs.«412466_j9448928051410_3_alg».proof.Proof.Gen.Kernel.Skeleton
import proofs.«412466_j9448928051410_3_alg».proof.Proof.Gen.Kernel.Loops
import proofs.«412466_j9448928051410_3_alg».proof.Proof.Gen.Kernel.Launch
import proofs.«412466_j9448928051410_3_alg».proof.Proof.Gen.Kernel.Points
import proofs.«412466_j9448928051410_3_alg».proof.Proof.Gen.Kernel.Frame
import proofs.«412466_j9448928051410_3_alg».proof.Proof.Gen.KernelIdeal
import proofs.«412466_j9448928051410_3_alg».proof.Proof.Gen.KernelIdeal.Skeleton
import proofs.«412466_j9448928051410_3_alg».proof.Proof.Gen.KernelIdeal.Loops
import proofs.«412466_j9448928051410_3_alg».proof.Proof.Gen.KernelIdeal.Launch
import proofs.«412466_j9448928051410_3_alg».proof.Proof.Gen.KernelIdeal.Points
import proofs.«412466_j9448928051410_3_alg».proof.Proof.Gen.KernelIdeal.Frame
import proofs.«412466_j9448928051410_3_alg».proof.Proof.Gen.ReferenceIdeal
import proofs.«412466_j9448928051410_3_alg».proof.Proof.Gen.ReferenceIdeal.Run
import proofs.«412466_j9448928051410_3_alg».proof.Proof.Gen.ReferenceIdeal.Read
import proofs.«412466_j9448928051410_3_alg».proof.Proof.Gen.Pre_finite_inputs
import proofs.«412466_j9448928051410_3_alg».proof.Proof.PreDecode
import proofs.«412466_j9448928051410_3_alg».proof.Proof.RefValue
import proofs.«412466_j9448928051410_3_alg».proof.Proof.KRun
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one named constant: the kernel's per-tile addend is `512 · 9999` floors, `23056124157 / 2^52`. -/
theorem preserves : Cert.preserves_Kernel_KernelIdeal :=
  IdealRules.named_const.statement Cert.KernelIdeal.κ "tile_floor_sum" .f32 0x36ABC811#32
    ((23056124157 / 4503599627370496 : ℝ) : EReal) rfl

/-- Over the extended reals, from memories agreeing on the arguments and with every label a class index, the
    kernel and the reference end with the same result: the whole loss over the row count. -/
theorem algebraic : Cert.algebraic_KernelIdeal_ReferenceIdeal := by
  intro m ρ m' ρ' hpre hagree
  -- the labels are class indices
  choose l hl using fun c : Dev Cert.KernelIdeal.nD =>
    Cert.Pre_finite_inputs.Decode.labels_in_range (F := Ideal) _ _ _ (hpre c)
  refine ⟨fun c => Host.divf (F := Ideal)
      (fun _ => CenterLoss.total (Cert.KernelIdeal.LossValue.feat m c) (Cert.KernelIdeal.LossValue.cent m c) (l c))
      (constant (F := Ideal) Cert.KernelIdeal.S_ .f32 0x46000000#32),
    Cert.KernelIdeal.LossValue.run m ρ l hl, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq,
    Cert.ReferenceIdeal.RefValue.ref_result _ _ _ (l c) (by rw [(hagree c).2.1]; exact hl c),
    (hagree c).1, (hagree c).2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
